-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S2097152 : Shape := ⟨1, ![2097152]⟩
abbrev S4x16 : Shape := ⟨2, ![4, 16]⟩
abbrev S_ : Shape := ⟨0, ![]⟩

class Facts : Prop where
  bcast_S_S2097152x16 : S_.BroadcastsInDim S2097152x16 (![] : Fin 0 → Fin S2097152x16.rank)
  reducesTo_S2097152x16_S_d0_1 : S2097152x16.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S2097152 : S_.BroadcastsInDim S2097152 (![] : Fin 0 → Fin S2097152.rank)
  reducesTo_S2097152_S_d0 : S2097152.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2097152x16 .f32) (main_arg1 : IVec S2097152 32) (main_arg2 : IVec S2097152 32) (main_arg3 : FVec F S4x16 .f32) : IVec S_ 1 :=
  let main_v0 : FVec F S2097152x16 .f32 := Host.absf main_arg0
  let main_cst : FVec F S_ .f32 := constant S_ .f32 0x7F800000#32
  let main_v1 : FVec F S2097152x16 .f32 := broadcastInDim S2097152x16 ![] bcast_S_S2097152x16 main_cst
  let main_v2 : IVec S2097152x16 1 := cmpf .olt main_v0 main_v1
  let main_c : IVec S_ 1 := constantI S_ 1 1#1
  let main_v3 : IVec S_ 1 := (fun x v => Host.reduce IntOp.andi x v reducesTo_S2097152x16_S_d0_1 h_S_) main_v2 main_c
  let main_v4 : FVec F S4x16 .f32 := Host.absf main_arg3
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_c_2 : IVec S_ 32 := constantI S_ 32 0#32
  let main_v9 : IVec S2097152 32 := broadcastInDim S2097152 ![] bcast_S_S2097152 main_c_2
  let main_v10 : IVec S2097152 1 := cmpi .sge main_arg1 main_v9
  let main_c_3 : IVec S_ 1 := constantI S_ 1 1#1
  let main_v11 : IVec S_ 1 := (fun x v => Host.reduce IntOp.andi x v reducesTo_S2097152_S_d0 h_S_) main_v10 main_c_3
  let main_v12 : IVec S_ 1 := andi main_v8 main_v11
  let main_c_4 : IVec S_ 32 := constantI S_ 32 4#32
  let main_v13 : IVec S2097152 32 := broadcastInDim S2097152 ![] bcast_S_S2097152 main_c_4
  let main_v14 : IVec S2097152 1 := cmpi .slt main_arg1 main_v13
  let main_c_5 : IVec S_ 1 := constantI S_ 1 1#1
  let main_v15 : IVec S_ 1 := (fun x v => Host.reduce IntOp.andi x v reducesTo_S2097152_S_d0 h_S_) main_v14 main_c_5
  fn_part1 (F := F) main_v12 main_v15
-- ==== Kernel.lean ====
abbrev S2097152x16 : Shape := ⟨2, ![2097152, 16]⟩
abbrev S2097152 : Shape := ⟨1, ![2097152]⟩
abbrev S4x16 : Shape := ⟨2, ![4, 16]⟩
abbrev S2x1x1 : Shape := ⟨3, ![2, 1, 1]⟩
abbrev S8192x16 : Shape := ⟨2, ![8192, 16]⟩
abbrev S8192 : Shape := ⟨1, ![8192]⟩
abbrev S1x1x1 : Shape := ⟨3, ![1, 1, 1]⟩
abbrev S8192x1 : Shape := ⟨2, ![8192, 1]⟩
abbrev S1x16 : Shape := ⟨2, ![1, 16]⟩
abbrev S16 : Shape := ⟨1, ![16]⟩
abbrev S1x8192 : Shape := ⟨2, ![1, 8192]⟩
abbrev S1 : Shape := ⟨1, ![1]⟩
abbrev S1x1 : Shape := ⟨2, ![1, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S2097152x16, .f32⟩
  | .hbm, ⟨1, _⟩ => ⟨S2097152, .i32⟩
  | .hbm, ⟨2, _⟩ => ⟨S2097152, .i32⟩
  | .hbm, ⟨3, _⟩ => ⟨S4x16, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x16, .f32⟩
  | .local _ .vmem, ⟨1, _⟩ => ⟨S8192x16, .f32⟩
  | .local _ .vmem, ⟨2, _⟩ => ⟨S8192, .i32⟩
  | .local _ .vmem, ⟨3, _⟩ => ⟨S8192, .i32⟩
  | .local _ .vmem, ⟨4, _⟩ => ⟨S8192, .i32⟩
  | .local _ .vmem, ⟨5, _⟩ => ⟨S8192, .i32⟩
  | .local _ .vmem, ⟨6, _⟩ => ⟨S4x16, .f32⟩
  | .local _ .vmem, ⟨7, _⟩ => ⟨S1x1x1, .f32⟩
  | .local _ .vmem, ⟨8, _⟩ => ⟨S1x1x1, .f32⟩
  | _, _ => ⟨S2097152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S8192x16_S8192x16_0_0 : ∀ a, (![0, 0] : Fin 2 → Nat) a + S8192x16.size a ≤ S8192x16.size a
  h_S8192x16 : 0 < S8192x16.numel
  inb_S8192_S8192_0 : ∀ a, (![0] : Fin 1 → Nat) a + S8192.size a ≤ S8192.size a
  h_S8192 : 0 < S8192.numel
  inb_S4x16_S4x16_0_0 : ∀ a, (![0, 0] : Fin 2 → Nat) a + S4x16.size a ≤ S4x16.size a
  h_S4x16 : 0 < S4x16.numel
  reduces_S8192x16_S8192 : S8192x16.Reduces [1] S8192
  shapeCasts_S8192_S8192x1 : S8192.ShapeCasts S8192x1
  broadcasts_S8192x1_S8192x16 : S8192x1.Broadcasts S8192x16
  iota_S8192x16_d1_w32 : S8192x16.Iotas .tc 32 [1]
  natLt_1_32 : 1 < 32
  slices_S4x16_o0_0_S1x16 : S4x16.Slices ![0, 0] S1x16
  shapeCasts_S1x16_S16 : S1x16.ShapeCasts S16
  shapeCasts_S16_S1x16 : S16.ShapeCasts S1x16
  broadcasts_S1x16_S8192x16 : S1x16.Broadcasts S8192x16
  slices_S4x16_o1_0_S1x16 : S4x16.Slices ![1, 0] S1x16
  slices_S4x16_o2_0_S1x16 : S4x16.Slices ![2, 0] S1x16
  slices_S4x16_o3_0_S1x16 : S4x16.Slices ![3, 0] S1x16
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S2097152x16.size a
  hwx0_0 : ∀ i : grid0.Coords, EltTy.bits .f32 = 32 ∨ (Rect.block (s := S2097152x16) S8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S2097152.size a
  hwx0_1 : ∀ i : grid0.Coords, EltTy.bits .i32 = 32 ∨ (Rect.block (s := S2097152) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S2097152.size a
  hwx0_2 : ∀ i : grid0.Coords, EltTy.bits .i32 = 32 ∨ (Rect.block (s := S2097152) S8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .f32 = 32 ∨ (Rect.block (s := S4x16) S4x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2097152x16 : Shape := ⟨2, ![2097152, 16]⟩
abbrev S2097152 : Shape := ⟨1, ![2097152]⟩
abbrev S4x16 : Shape := ⟨2, ![4, 16]⟩
abbrev S_ : Shape := ⟨0, ![]⟩
abbrev S2097152x1 : Shape := ⟨2, ![2097152, 1]⟩
abbrev S2097152x1x1 : Shape := ⟨3, ![2097152, 1, 1]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S2097152x16, .f32⟩
  | .hbm, ⟨1, _⟩ => ⟨S2097152, .i32⟩
  | .hbm, ⟨2, _⟩ => ⟨S2097152, .i32⟩
  | .hbm, ⟨3, _⟩ => ⟨S4x16, .f32⟩
  | .hbm, ⟨4, _⟩ => ⟨S_, .f32⟩
  | .hbm, ⟨5, _⟩ => ⟨S2097152, .f32⟩
  | .hbm, ⟨6, _⟩ => ⟨S_, .f32⟩
  | .hbm, ⟨7, _⟩ => ⟨S2097152, .f32⟩
  | .hbm, ⟨8, _⟩ => ⟨S2097152, .f32⟩
  | .hbm, ⟨9, _⟩ => ⟨S2097152x1, .f32⟩
  | .hbm, ⟨10, _⟩ => ⟨S2097152x16, .f32⟩
  | .hbm, ⟨11, _⟩ => ⟨S2097152x16, .f32⟩
  | .hbm, ⟨12, _⟩ => ⟨S2097152x16, .f32⟩
  | .hbm, ⟨13, _⟩ => ⟨S_, .f32⟩
  | .hbm, ⟨14, _⟩ => ⟨S2097152, .f32⟩
  | .hbm, ⟨15, _⟩ => ⟨S2097152x1, .f32⟩
  | .hbm, ⟨16, _⟩ => ⟨S2097152x1, .f32⟩
  | .hbm, ⟨17, _⟩ => ⟨S2097152x16, .f32⟩
  | .hbm, ⟨18, _⟩ => ⟨S2097152x16, .f32⟩
  | .hbm, ⟨19, _⟩ => ⟨S2097152x1, .i32⟩
  | .hbm, ⟨20, _⟩ => ⟨S_, .i32⟩
  | .hbm, ⟨21, _⟩ => ⟨S2097152x1, .i32⟩
  | .hbm, ⟨22, _⟩ => ⟨S2097152x1, .i1⟩
  | .hbm, ⟨23, _⟩ => ⟨S_, .i32⟩
  | .hbm, ⟨24, _⟩ => ⟨S2097152x1, .i32⟩
  | .hbm, ⟨25, _⟩ => ⟨S2097152x1, .i32⟩
  | .hbm, ⟨26, _⟩ => ⟨S2097152x1, .i32⟩
  | .hbm, ⟨27, _⟩ => ⟨S2097152x1x1, .i32⟩
  | .hbm, ⟨28, _⟩ => ⟨S1, .i32⟩
  | .hbm, ⟨29, _⟩ => ⟨S_, .i32⟩
  | .hbm, ⟨30, _⟩ => ⟨S2097152x1x1, .i32⟩
  | .hbm, ⟨31, _⟩ => ⟨S2097152x1x1, .i1⟩
  | .hbm, ⟨32, _⟩ => ⟨S1x1x1, .i32⟩
  | .hbm, ⟨33, _⟩ => ⟨S2097152x1x1, .i32⟩
  | .hbm, ⟨34, _⟩ => ⟨S2097152x1x1, .i1⟩
  | .hbm, ⟨35, _⟩ => ⟨S2097152x1x1, .i1⟩
  | .hbm, ⟨36, _⟩ => ⟨S_, .i1⟩
  | .hbm, ⟨37, _⟩ => ⟨S2097152x1, .i1⟩
  | .hbm, ⟨38, _⟩ => ⟨S2097152x1, .f32⟩
  | .hbm, ⟨39, _⟩ => ⟨S_, .f32⟩
  | .hbm, ⟨40, _⟩ => ⟨S2097152x1, .f32⟩
  | .hbm, ⟨41, _⟩ => ⟨S2097152x1, .f32⟩
  | .hbm, ⟨42, _⟩ => ⟨S2097152, .f32⟩
  | .hbm, ⟨43, _⟩ => ⟨S2097152, .f32⟩
  | .hbm, ⟨44, _⟩ => ⟨S_, .i32⟩
  | .hbm, ⟨45, _⟩ => ⟨S2097152, .i32⟩
  | .hbm, ⟨46, _⟩ => ⟨S2097152, .i1⟩
  | .hbm, ⟨47, _⟩ => ⟨S_, .i32⟩
  | .hbm, ⟨48, _⟩ => ⟨S2097152, .i32⟩
  | .hbm, ⟨49, _⟩ => ⟨S2097152, .i32⟩
  | .hbm, ⟨50, _⟩ => ⟨S2097152, .i32⟩
  | .hbm, ⟨51, _⟩ => ⟨S2097152x1, .i32⟩
  | .hbm, ⟨52, _⟩ => ⟨S2097152x16, .f32⟩
  | .hbm, ⟨53, _⟩ => ⟨S2097152x16, .f32⟩
  | .hbm, ⟨54, _⟩ => ⟨S2097152x16, .f32⟩
  | .hbm, ⟨55, _⟩ => ⟨S_, .f32⟩
  | .hbm, ⟨56, _⟩ => ⟨S2097152, .f32⟩
  | .hbm, ⟨57, _⟩ => ⟨S_, .f32⟩
  | .hbm, ⟨58, _⟩ => ⟨S2097152, .f32⟩
  | .hbm, ⟨59, _⟩ => ⟨S2097152, .f32⟩
  | .hbm, ⟨60, _⟩ => ⟨S2097152, .f32⟩
  | .hbm, ⟨61, _⟩ => ⟨S2097152, .f32⟩
  | .hbm, ⟨62, _⟩ => ⟨S_, .i32⟩
  | .hbm, ⟨63, _⟩ => ⟨S2097152, .i32⟩
  | .hbm, ⟨64, _⟩ => ⟨S2097152, .i1⟩
  | .hbm, ⟨65, _⟩ => ⟨S2097152, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S2097152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c : Ref sig .tc := ⟨.hbm, 44, rfl⟩
abbrev main_v5 : Ref sig .tc := ⟨.hbm, 45, rfl⟩
abbrev main_v6 : Ref sig .tc := ⟨.hbm, 46, rfl⟩
abbrev main_c_0 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst : Ref sig .tc := ⟨.hbm, 55, rfl⟩
abbrev main_v14 : Ref sig .tc := ⟨.hbm, 56, rfl⟩
abbrev main_cst_1 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_2 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩

abbrev nD : Nat := 1
abbrev τ : Topo := Topo.v7x

variable {F : FTy → Type} [FloatOps F]

class Facts₀ : Prop where
  reducesTo_S2097152x16_S2097152_d1 : S2097152x16.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x16_0_1 : S2097152x1.BroadcastsInDim S2097152x16 (![0, 1] : Fin 2 → Fin S2097152x16.rank)
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  shapeCasts_S2097152x1_S2097152 : S2097152x1.ShapeCasts S2097152
  reducesTo_S2097152_S_d0 : S2097152.ReducesTo [0] S_
  gather_S2097152x16_S2097152x1x1_S2097152x1_n_1_0_0_1_2_11_wf : GatherDims.WF S2097152x16 S2097152x1x1 S2097152x1 [] [1] [0] [1] [0] 2 ![1, 1]
  gather_S4x16_S2097152x1_S2097152x16_1_0_n_n_0_1_116_wf : GatherDims.WF S4x16 S2097152x1 S2097152x16 [1] [0] [] [0] [] 1 ![1, 16]

variable [Facts₀]

def gather_S2097152x16_S2097152x1x1_S2097152x1_n_1_0_0_1_2_11 : GatherDims S2097152x16 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x16_S2097152x1x1_S2097152x1_n_1_0_0_1_2_11_wf
def gather_S4x16_S2097152x1_S2097152x16_1_0_n_n_0_1_116 : GatherDims S4x16 S2097152x1 S2097152x16 where
  offsetDims := [1]
  collapsedSliceDims := [0]
  operandBatchingDims := []
  startIndicesBatchingDims := []
  startIndexMap := [0]
  indexVectorDim := 1
  sliceSizes := ![1, 16]
  wf := gather_S4x16_S2097152x1_S2097152x16_1_0_n_n_0_1_116_wf

class Facts : Prop extends Facts₀ where

variable [Facts]
-- ==== Proof.KerPieces.lean ====
/-
  What one grid point leaves in the output's one-element staging buffer.

  At a point the body loads its four blocks (8192 rows of logits, their targets, their flags, the whole membership
  table), computes the sum of the 8192 rows' losses, and adds it to the buffer's element: at the first point of each
  half of the grid (the 128 points of one output element) it first resets the element to zero, at the others it adds
  to what the point before left.
-/
import proofs.«416918_j68959994904874_1_alg».proof.Proof.Gen.KernelIdeal.Frame
import Idealize.ShloMosaic.Lib.Pipeline.Value
import Idealize.ShloMosaic.Lib.Tactic

set_option maxRecDepth 16384

noncomputable section

namespace Cert.KernelIdeal.Loss

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The sum of one block's 8192 row losses, as the body computes it from its four loaded blocks. -/
def blockLoss (x0 : Vec F S8192x16 .f32) (x1 : Vec F S8192 .i32) (x2 : Vec F S8192 .i32) (x3 : Vec F S4x16 .f32) : F .f32 :=
  k0_pay8 x1 x2 x3 (k0_pay4 x0) (k0_pay5 x0 x1) (k0_pay6 x1 x3) k0_pay7

/-- A point that is not the first of its half: the element the point before left, plus the block's loss. -/
theorem out_B (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S4x16 .f32) (harg5 : arg5.IsWhole) (arg6 : Memref sig .tc .vmem S1x1x1 .f32) (harg6 : arg6.IsWhole) (hc0 : ¬cond0_0 i) (x0 : Vec F S8192x16 .f32) (x1 : Vec F S8192 .i32) (x2 : Vec F S8192 .i32) (x3 : Vec F S4x16 .f32) (xo4 : Vec F S1x1x1 .f32) :
    out0_B_4 c i arg2 harg2 arg3 harg3 arg4 harg4 arg5 harg5 arg6 harg6 hc0 x0 x1 x2 x3 xo4 = k0_pay1 (blockLoss x0 x1 x2 x3) xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero hz3]
  unfold blockLoss
  simp only [View.readAt_eq_ld, harg2.read_unread, harg3.read_unread, harg4.read_unread, harg5.read_unread, harg6.read_unread,
    View.ld_unit_zero (S := S8192x16) hz2, View.ld_unit_zero (S := S8192) hz1, View.ld_unit_zero (S := S4x16) hz2,
    View.ld_unit_zero (S := S1x1x1) hz3]

/-- The first point of a half: the element is reset to zero, read back, and the block's loss added. -/
theorem out_A (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S4x16 .f32) (harg5 : arg5.IsWhole) (arg6 : Memref sig .tc .vmem S1x1x1 .f32) (harg6 : arg6.IsWhole) (hc0 : cond0_0 i) (x0 : Vec F S8192x16 .f32) (x1 : Vec F S8192 .i32) (x2 : Vec F S8192 .i32) (x3 : Vec F S4x16 .f32) :
    out0_A_4 c i arg2 harg2 arg3 harg3 arg4 harg4 arg5 harg5 arg6 harg6 hc0 x0 x1 x2 x3 = k0_pay1 (blockLoss x0 x1 x2 x3) k0_pay2 := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x1x1) hz3, View.readCov_unit_zero (S := S1x1x1) _ hz3]
  unfold blockLoss
  simp only [View.readAt_eq_ld, harg2.read_unread, harg3.read_unread, harg4.read_unread, harg5.read_unread,
    View.ld_unit_zero (S := S8192x16) hz2, View.ld_unit_zero (S := S8192) hz1, View.ld_unit_zero (S := S4x16) hz2]

end Cert.KernelIdeal.Loss

end
-- ==== Proof.Spec.lean ====
/-
  The hierarchical cross-entropy loss as ONE function of the four argument arrays, on the extended reals.

  Per row r of the logits (16 classes): with M the row's maximum, the log-softmax is
  lsm c = (x c − M) − log (∑ₖ exp (x k − M)). The row's target t picks, for a "fine" row (flag = 1), the loss
  −lsm t, and for a "coarse" row the loss −log (∑_c exp (lsm c) · mask t c + ε), where mask is the 4 × 16 membership
  table. The result is the mean over the 2 097 152 rows: (0 + ∑ᵣ loss r) / 2²¹.
  The target word is read as an index into the table's four rows: signed, clamped into 0 … 3.
-/
import Idealize.ShloMosaic.PureOps.Ideal
import Idealize.ShloMosaic.PureOps.Ideal.Laws
import Idealize.ShloMosaic.Lib.ValueIdx
import Idealize.ShloMosaic.Lib.Affine
import Mathlib.Algebra.BigOperators.Group.Finset.Basic
import Mathlib.Data.Finset.Fold

noncomputable section

namespace Cert.HCE

open Idealize.ShloMosaic

/-- −∞: where both programs start a row's maximum. -/
abbrev negInf : EReal := Ideal.ofBits .f32 0xFF800000#32
/-- The ε added under the coarse branch's logarithm: the same f32 word in both programs. -/
abbrev eps : EReal := Ideal.ofBits .f32 0x322BCC77#32
/-- 2²¹ = 2 097 152, the number of rows, as both programs' divisor word. -/
abbrev nRows : EReal := Ideal.ofBits .f32 0x4A000000#32
/-- The zero word both programs start their sums from. -/
abbrev zeroW : EReal := Ideal.ofBits .f32 0x00000000#32

/-- A row's maximum, from −∞. -/
def rowMax (x : Fin 16 → EReal) : EReal := (Finset.univ : Finset (Fin 16)).fold max negInf x

/-- A row's log-softmax at class c. -/
def lsm (x : Fin 16 → EReal) (c : Fin 16) : EReal :=
  (x c - rowMax x) - Ideal.log (∑ k : Fin 16, Ideal.exp (x k - rowMax x))

/-- The target word as a row of the 4-row table: read signed, clamped into 0 … 3. -/
def tgt (t : BitVec 32) : Fin 4 := ⟨min t.toInt.toNat 3, by omega⟩

/-- The same number as a class (a column of the 16). -/
def tgtClass (t : BitVec 32) : Fin 16 := ⟨(tgt t).val, by have := (tgt t).isLt; omega⟩

/-- The fine branch: minus the log-probability of the target class. -/
def fine (x : Fin 16 → EReal) (t : BitVec 32) : EReal := -(lsm x (tgtClass t))

/-- The coarse branch: minus the logarithm of the probability mass of the target's member classes, plus ε. -/
def coarse (sm : Fin 4 → Fin 16 → EReal) (x : Fin 16 → EReal) (t : BitVec 32) : EReal :=
  -(Ideal.log ((∑ c : Fin 16, Ideal.exp (lsm x c) * sm (tgt t) c) + eps))

/-- One row's loss: the fine branch where the flag word is 1, else the coarse branch. -/
def rowLoss (sm : Fin 4 → Fin 16 → EReal) (x : Fin 16 → EReal) (t f : BitVec 32) : EReal :=
  Scalar.select (IntOp.cmpi .eq f 1#32) (fine x t) (coarse sm x t)

/-- The mean loss: the sum over all rows from the zero word, divided by the row count's word. -/
def total (X : Fin 2097152 → Fin 16 → EReal) (T Fl : Fin 2097152 → BitVec 32) (sm : Fin 4 → Fin 16 → EReal) : EReal :=
  Ideal.div (zeroW + ∑ r : Fin 2097152, rowLoss sm (X r) (T r) (Fl r)) nRows

/-! ## The definitions, as equations (what other modules rewrite with) -/

theorem rowMax_def (x : Fin 16 → EReal) : rowMax x = (Finset.univ : Finset (Fin 16)).fold max negInf x := rfl
theorem lsm_def (x : Fin 16 → EReal) (c : Fin 16) :
    lsm x c = (x c - rowMax x) - Ideal.log (∑ k : Fin 16, Ideal.exp (x k - rowMax x)) := rfl
theorem tgt_val (t : BitVec 32) : (tgt t).val = min t.toInt.toNat 3 := rfl
theorem tgtClass_val (t : BitVec 32) : (tgtClass t).val = (tgt t).val := rfl
theorem fine_def (x : Fin 16 → EReal) (t : BitVec 32) : fine x t = -(lsm x (tgtClass t)) := rfl
theorem coarse_def (sm : Fin 4 → Fin 16 → EReal) (x : Fin 16 → EReal) (t : BitVec 32) :
    coarse sm x t = -(Ideal.log ((∑ c : Fin 16, Ideal.exp (lsm x c) * sm (tgt t) c) + eps)) := rfl
theorem rowLoss_def (sm : Fin 4 → Fin 16 → EReal) (x : Fin 16 → EReal) (t f : BitVec 32) :
    rowLoss sm x t f = Scalar.select (IntOp.cmpi .eq f 1#32) (fine x t) (coarse sm x t) := rfl
theorem total_def (X : Fin 2097152 → Fin 16 → EReal) (T Fl : Fin 2097152 → BitVec 32) (sm : Fin 4 → Fin 16 → EReal) :
    total X T Fl sm = Ideal.div (zeroW + ∑ r : Fin 2097152, rowLoss sm (X r) (T r) (Fl r)) nRows := rfl

/-- The zero word is the real number zero. -/
theorem zeroW_eq : zeroW = 0 := Ideal.ofBits_zero_f32

/-! ## Words in range

A target word whose signed value lies in 0 … 3 is one of the four words 0, 1, 2, 3. -/

theorem word_cases (t : BitVec 32) (h0 : 0 ≤ t.toInt) (h4 : t.toInt < 4) : t = 0#32 ∨ t = 1#32 ∨ t = 2#32 ∨ t = 3#32 := by
  have h : t.toInt = 0 ∨ t.toInt = 1 ∨ t.toInt = 2 ∨ t.toInt = 3 := by omega
  rcases h with h | h | h | h
  · exact Or.inl (BitVec.eq_of_toInt_eq (by rw [h]; decide))
  · exact Or.inr (Or.inl (BitVec.eq_of_toInt_eq (by rw [h]; decide)))
  · exact Or.inr (Or.inr (Or.inl (BitVec.eq_of_toInt_eq (by rw [h]; decide))))
  · exact Or.inr (Or.inr (Or.inr (BitVec.eq_of_toInt_eq (by rw [h]; decide))))

/-- In range, the word is its own row number written as a word. -/
theorem word_eq_ofNat_tgt (t : BitVec 32) (h0 : 0 ≤ t.toInt) (h4 : t.toInt < 4) : t = BitVec.ofNat 32 (tgt t).val := by
  rcases word_cases t h0 h4 with rfl | rfl | rfl | rfl <;> decide

/-- The 0/1 indicator a kernel builds from a comparison: the one-bit result widened to a word and converted. -/
theorem indicator (b : BitVec 1) :
    (FloatOps.sitofp (F := Ideal) .f32 (b.setWidth 32) : EReal) = if b = 1#1 then 1 else 0 := by
  show ((((b.setWidth 32).toInt : ℝ)) : EReal) = _
  have hb : b = 1#1 ∨ b = 0#1 := by revert b; decide
  rcases hb with rfl | rfl
  · rw [if_pos rfl]; show (((1 : ℤ) : ℝ) : EReal) = 1; norm_num
  · rw [if_neg (by decide)]; show (((0 : ℤ) : ℝ) : EReal) = 0; norm_num

/-- Comparing a class number's word with an in-range target word: equal exactly at the target's class. -/
theorem class_eq_iff (t : BitVec 32) (h0 : 0 ≤ t.toInt) (h4 : t.toInt < 4) (c : Fin 16) :
    IntOp.cmpi .eq (BitVec.ofNat 32 c.val) t = 1#1 ↔ c = tgtClass t := by
  rw [IntOp.cmpi_eq]
  rcases word_cases t h0 h4 with rfl | rfl | rfl | rfl <;> revert c <;> decide

/-- Comparing an in-range target word with the word of a table row s: equal exactly at the target's row. -/
theorem row_eq_iff (t : BitVec 32) (h0 : 0 ≤ t.toInt) (h4 : t.toInt < 4) (s : Fin 4) :
    IntOp.cmpi .eq t (BitVec.ofNat 32 s.val) = 1#1 ↔ tgt t = s := by
  rw [IntOp.cmpi_eq]
  rcases word_cases t h0 h4 with rfl | rfl | rfl | rfl <;> revert s <;> decide

end Cert.HCE

end
-- ==== Proof.KerAcc.lean ====
/-
  The output element across the grid: a running sum.

  The 256 grid points are two halves of 128; all points of half h add their block's loss to element h of the
  [2,1,1] result, the first point of a half after resetting it to the zero word. So after point n the staging element
  holds  zero + ∑_{i ≤ n mod 128} loss (n − n mod 128 + i), and the write-back at the last point of each half
  (n mod 128 = 127) writes the half's total.
-/
import proofs.«416918_j68959994904874_1_alg».proof.Proof.KerPieces
import proofs.«416918_j68959994904874_1_alg».proof.Proof.Spec

noncomputable section

namespace Cert.KernelIdeal.Loss

open Idealize.ShloMosaic Idealize.ShloMosaic.TcCoe Idealize.SL.Sem
open Idealize.ShloMosaic.Pipeline (Dat)
open Cert.KernelIdeal Cert.KernelIdeal.Gen
open Cert.HCE (zeroW)

variable (m : (ℓ : Loc nD τ sig) → Buf (Elt Ideal) ℓ) (ρ : Dev nD → PrngReg)

/-- The four blocks the windows hold at point t, at their literal types. -/
abbrev blk0 (c : Dev nD) (t : Fin cfg0.N) : Vec Ideal S8192x16 .f32 := iblk m c 0 t
abbrev blk1 (c : Dev nD) (t : Fin cfg0.N) : Vec Ideal S8192 .i32 := iblk m c 1 t
abbrev blk2 (c : Dev nD) (t : Fin cfg0.N) : Vec Ideal S8192 .i32 := iblk m c 2 t
abbrev blk3 (c : Dev nD) (t : Fin cfg0.N) : Vec Ideal S4x16 .f32 := iblk m c 3 t

/-- The loss of the block at point t. -/
def lossAt (c : Dev nD) (t : Fin cfg0.N) : EReal :=
  blockLoss (F := Ideal) (blk0 m c t) (blk1 m c t) (blk2 m c t) (blk3 m c t)

/-- The same at a natural number, zero past the grid. -/
def lossN (c : Dev nD) (n : ℕ) : EReal := if h : n < cfg0.N then lossAt m c ⟨n, h⟩ else 0

theorem lossN_of_lt (c : Dev nD) (n : ℕ) (h : n < cfg0.N) : lossN m c n = lossAt m c ⟨n, h⟩ := dif_pos h

/-- What a point adds: the element it found, plus the block's loss. -/
theorem pay1_apply (v90 : EReal) (v91 : Vec Ideal S1x1x1 .f32) (j : S1x1x1.Idx) :
    k0_pay1 (F := Ideal) v90 v91 j = v91 j + v90 := by
  unfold k0_pay1
  show shapeCast S1x1x1 v91 shapeCasts_S1x1x1_S1x1x1 j + v90 = _
  rw [shapeCast_self]

/-- The reset stores the zero word. -/
theorem pay2_apply (j : S1x1x1.Idx) : k0_pay2 (F := Ideal) j = zeroW := rfl

/-- The staging element after point n, in the order the points add: from the zero word at the first point of a
    half, else from what the point before left. -/
def running (c : Dev nD) : (n : ℕ) → n < cfg0.N → EReal
  | 0, h => zeroW + lossAt m c ⟨0, h⟩
  | n + 1, h =>
    if (n + 1) % 128 = 0 then zeroW + lossAt m c ⟨n + 1, h⟩
    else running c n (Nat.lt_of_succ_lt h) + lossAt m c ⟨n + 1, h⟩

/-- What the frame's accumulation holds after point n is that running sum: by induction on the point. -/
theorem outsAt_eq (c : Dev nD) : ∀ (n : ℕ) (h : n < cfg0.N), outsAt0 m c n h = fun _ => running m c n h
  | 0, h => by
    rw [outsAt0_A m c ⟨0, h⟩ rfl, out_A]
    funext j
    rw [pay1_apply, pay2_apply]
    rfl
  | n + 1, h => by
    by_cases h0 : (n + 1) % 128 = 0
    · rw [outsAt0_A m c ⟨n + 1, h⟩ h0, out_A]
      funext j
      rw [pay1_apply, pay2_apply]
      show _ = running m c (n + 1) h
      rw [running, if_pos h0]
      rfl
    · rw [outsAt0_B m c ⟨n + 1, h⟩ h0, out_B]
      funext j
      rw [pay1_apply]
      show outsAt0 m c n _ j + _ = running m c (n + 1) h
      rw [outsAt_eq c n, running, if_neg h0]
      rfl

/-- The running sum in closed form: the zero word plus the losses of the points of the current half so far. -/
theorem running_eq (c : Dev nD) : ∀ (n : ℕ) (h : n < cfg0.N),
    running m c n h = zeroW + ∑ i ∈ Finset.range (n % 128 + 1), lossN m c (n - n % 128 + i)
  | 0, h => by
    rw [running]
    show _ = zeroW + ∑ i ∈ Finset.range 1, lossN m c (0 + i)
    rw [Finset.sum_range_one, lossN_of_lt m c _ h]
  | n + 1, h => by
    rw [running]
    by_cases h0 : (n + 1) % 128 = 0
    · rw [if_pos h0, h0]
      show _ = zeroW + ∑ i ∈ Finset.range 1, lossN m c (n + 1 - 0 + i)
      rw [Finset.sum_range_one]
      show _ = zeroW + lossN m c (n + 1)
      rw [lossN_of_lt m c _ h]
    · rw [if_neg h0, running_eq c n]
      have e1 : (n + 1) % 128 = n % 128 + 1 := by omega
      have e2 : n + 1 - (n % 128 + 1) = n - n % 128 := by omega
      rw [e1, e2, Finset.sum_range_succ _ (n % 128 + 1), add_assoc]
      have e3 : n - n % 128 + (n % 128 + 1) = n + 1 := by omega
      rw [e3, lossN_of_lt m c _ h]

end Cert.KernelIdeal.Loss

end
-- ==== Proof.KerArray.lean ====
/-
  The result array and the host tail.

  Element h of the [2,1,1] result array is written once, at the last point of half h, with the half's total: the
  zero word plus the losses of the half's 128 blocks. After the region the host adds the two elements from the zero word and
  divides by the row count's word.
-/
import proofs.«416918_j68959994904874_1_alg».proof.Proof.KerAcc
import Idealize.ShloMosaic.Lib.Pipeline.Value
import Idealize.ShloMosaic.Lib.StableHlo.Run
import Idealize.ShloMosaic.PureOps.Ideal.Laws

noncomputable section

namespace Cert.KernelIdeal.Loss

open Idealize.ShloMosaic Idealize.ShloMosaic.TcCoe Idealize.SL.Sem
open Idealize.ShloMosaic.Pipeline (Dat)
open Cert.KernelIdeal Cert.KernelIdeal.Gen
open Cert.HCE (zeroW nRows)

variable (m : (ℓ : Loc nD τ sig) → Buf (Elt Ideal) ℓ) (ρ : Dev nD → PrngReg)

/-- Half h's total: the zero word plus the losses of its 128 blocks, in order. -/
def halfTotal (c : Dev nD) (h : ℕ) : EReal := zeroW + ∑ i ∈ Finset.range 128, lossN m c (128 * h + i)

/-- The result array: element (h, 0, 0) holds half h's total. -/
def result (c : Dev nD) : S2x1x1.Idx → EReal := fun i => halfTotal m c (i 0).val

/-- The output's index map over the grid: point t writes element t / 128. -/
theorem idx_facts4 : ∀ t : Fin cfg0.N, win0_4.index t (0 : Fin 3) = t.val / 128
    ∧ win0_4.index t (1 : Fin 3) = 0 ∧ win0_4.index t (2 : Fin 3) = 0 :=
  (by decide +kernel : ∀ t : Fin grid0.N, _)

/-- What a write-back writes: at the last point of a half, the half's total, which is that point's block of `result`. -/
theorem flushed_eq (c : Dev nD) (t : Fin cfg0.N) (hf : (cfg0.win 4).flush t = true) :
    (dats m 0 c).flushed 4 t = ((cfg0.win 4).blk t).view.read (Elt Ideal) (result m c) := by
  have h127 : t.val % 128 = 127 := (flush0_4 t).mp hf
  obtain ⟨e0, e1, e2⟩ := idx_facts4 t
  show (cfg0.win 4).cut (grid0.coords t) ((dats m 0 c).after 4 t) = _
  rw [after0_4, outsAt_eq, running_eq]
  funext y
  rw [View.read_apply]
  have hv : ((((cfg0.win 4).blk t).view.emb y) 0).val = t.val / 128 := by
    show win0_4.index t (0 : Fin 3) * 1 + 1 * (y 0).val = _
    have hy : (y 0).val < 1 := (y 0).isLt
    omega
  show zeroW + ∑ i ∈ Finset.range (t.val % 128 + 1), lossN m c (t.val - t.val % 128 + i)
    = halfTotal m c ((((cfg0.win 4).blk t).view.emb y) 0).val
  rw [hv, halfTotal, h127]
  have e : t.val - 127 = 128 * (t.val / 128) := by omega
  rw [e]

/-- An index of the array is in point t's block iff each coordinate is in the block's range on its axis. -/
theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v0).slice (win0_4.rect t)).set ↔ _
  rw [View.set_slice_whole, Rect.mem_set_unit]
  exact Iff.rfl

/-- Every element is written: element h by the last point of half h. -/
theorem cover4 (i : S2x1x1.Idx) : ∃ t : Fin cfg0.N, (cfg0.win 4).flush t = true ∧ i ∈ ((cfg0.win 4).blk t).view.set := by
  have hN : cfg0.N = 256 := N_0
  have hi0 : (i 0).val < 2 := (i 0).isLt
  have hi1 : (i 1).val < 1 := (i 1).isLt
  have hi2 : (i 2).val < 1 := (i 2).isLt
  have ht : 128 * (i 0).val + 127 < cfg0.N := by rw [hN]; omega
  obtain ⟨e0, e1, e2⟩ := idx_facts4 ⟨128 * (i 0).val + 127, ht⟩
  refine ⟨⟨128 * (i 0).val + 127, ht⟩, (flush0_4 _).mpr (by show (128 * (i 0).val + 127) % 128 = 127; omega), ?_⟩
  rw [mem_blk4]
  intro a
  match a with
  | ⟨0, _⟩ =>
    show win0_4.index ⟨128 * (i 0).val + 127, ht⟩ (0 : Fin 3) * 1 ≤ (i 0).val ∧ (i 0).val < win0_4.index ⟨128 * (i 0).val + 127, ht⟩ (0 : Fin 3) * 1 + 1
    rw [e0]; show (128 * (i 0).val + 127) / 128 * 1 ≤ (i 0).val ∧ (i 0).val < (128 * (i 0).val + 127) / 128 * 1 + 1; omega
  | ⟨1, _⟩ =>
    show win0_4.index ⟨128 * (i 0).val + 127, ht⟩ (1 : Fin 3) * 1 ≤ (i 1).val ∧ (i 1).val < win0_4.index ⟨128 * (i 0).val + 127, ht⟩ (1 : Fin 3) * 1 + 1
    rw [e1]; omega
  | ⟨2, _⟩ =>
    show win0_4.index ⟨128 * (i 0).val + 127, ht⟩ (2 : Fin 3) * 1 ≤ (i 2).val ∧ (i 2).val < win0_4.index ⟨128 * (i 0).val + 127, ht⟩ (2 : Fin 3) * 1 + 1
    rw [e2]; omega

/-- So the result array ends holding the two halves' totals. -/
theorem final4 (c : Dev nD) : (dats m 0 c).arrAt 4 cfg0.N = result m c :=
  (dats m 0 c).arrAt_eq_of_cover 4 (result m c) (flushed_eq m c) cover4

end Cert.KernelIdeal.Loss

end
-- ==== Proof.KerTail.lean ====
/-
  After the region: the host adds the two result elements from the zero word and divides by the row count's word.
-/
import proofs.«416918_j68959994904874_1_alg».proof.Proof.KerArray

noncomputable section

namespace Cert.KernelIdeal.Loss

open Idealize.ShloMosaic Idealize.ShloMosaic.TcCoe Idealize.ShloMosaic.StableHlo Idealize.SL.Sem
open Idealize.ShloMosaic.Pipeline (Dat)
open Cert.KernelIdeal Cert.KernelIdeal.Gen
open Cert.HCE (zeroW nRows)

variable (m : (ℓ : Loc nD τ sig) → Buf (Elt Ideal) ℓ) (ρ : Dev nD → PrngReg)

/-- The program's result buffer after the host tail, over the result array's final contents. -/
theorem tail_eq (c : Dev nD) :
    Pipeline.afterTail₀ cfgs (dats m) 0 (V0 m) [hostOps1] c main_v2
      = fun _ => Ideal.div (zeroW + ∑ i : S2x1x1.Idx, result m c i) nRows := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0) = result m c :=
    (Pipeline.withArrays_arr spec0 launch0.win.arr_inj c _ _ 4).trans (final4 m c)
  rw [hw]
  funext j
  show Ideal.div (Ideal.hostReduceAdd reducesTo_S2x1x1_S_d0_1_2 (result m c) (Ideal.ofBits .f32 0x00000000#32) j) (Ideal.ofBits .f32 0x4A000000#32) = _
  rw [Ideal.hostReduceAdd_total reducesTo_S2x1x1_S_d0_1_2 (fun b => b.elim0) (result m c) _ j]

end Cert.KernelIdeal.Loss

end
-- ==== Proof.LibBlockSum.lean ====
/-
  A sum over an initial segment of the naturals cut into consecutive blocks of one length: with N = T · L, the sum over
  n < N of g n is the sum over the blocks t < T of the sums over the places l < L of g (t · L + l). Over any commutative
  additive monoid: every n < T · L is t · L + l for exactly one pair (t, l) (division with remainder).
-/
import Mathlib.Logic.Equiv.Fin.Basic
import Mathlib.Data.Fintype.BigOperators
import Mathlib.Algebra.BigOperators.Group.Finset.Defs

namespace Cert.Lib

/-- The sum over `Fin N`, `N = T * L`, taken block by block: block `t` holds the indices `t * L + l` for `l < L`.
    The pairs (t, l) correspond one to one to the indices below `T * L` (`finProdFinEquiv`), and a sum over pairs is the
    iterated sum. -/
theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

/-- The same with a second, inner index carried along: the sum over n of the sums over j. -/
theorem sum_blocks₂ {M : Type*} [AddCommMonoid M] {T L N K : ℕ} (hN : T * L = N) (g : Fin K → Fin N → M)
    (hb : ∀ (t : Fin T) (l : Fin L), t.val * L + l.val < N) :
    ∑ t : Fin T, ∑ l : Fin L, ∑ j : Fin K, g j ⟨t.val * L + l.val, hb t l⟩ = ∑ n : Fin N, ∑ j : Fin K, g j n :=
  sum_blocks hN (fun n => ∑ j : Fin K, g j n) hb

end Cert.Lib
-- ==== Proof.KerTotal.lean ====
/-
  The kernel's sums regrouped: the two result elements, each the zero word plus its half's 128 block losses, each block
  loss a sum over the block's 8192 rows, add up (from the zero word) to the zero word plus the sum over ALL 2 097 152 rows —
  every row n is 8192·t + k for exactly one block t < 256 and place k < 8192, and every block t is 128·h + j for exactly one
  half h < 2 and place j < 128. On the extended reals addition is commutative and associative and the zero word is 0, so
  nothing else is needed.
-/
import proofs.«416918_j68959994904874_1_alg».proof.Proof.KerArray
import proofs.«416918_j68959994904874_1_alg».proof.Proof.LibBlockSum

noncomputable section

namespace Cert.KernelIdeal.Loss

open Idealize.ShloMosaic Idealize.ShloMosaic.TcCoe Idealize.ShloMosaic.ValueIdx Idealize.SL.Sem
open Cert.KernelIdeal Cert.KernelIdeal.Gen
open Cert.HCE (zeroW)

variable (m : (ℓ : Loc nD τ sig) → Buf (Elt Ideal) ℓ)

/-! ## Halves, blocks and rows: a sum over all rows, regrouped -/

/-- Two halves of 128 blocks of 8192 rows are all 2 097 152 rows: the sum taken half by half, block by block, row by
    row is the sum over all rows. Rows are grouped into the 256 blocks, and the blocks into the two halves. -/
theorem regroup (f : Fin 2097152 → EReal) :
    ∑ h : Fin 2, ∑ j : Fin 128, ∑ k : Fin 8192,
        f ⟨8192 * (128 * h.val + j.val) + k.val, by have := h.isLt; have := j.isLt; have := k.isLt; omega⟩
      = ∑ r : Fin 2097152, f r := by
  have hb : ∀ (t : Fin 256) (l : Fin 8192), t.val * 8192 + l.val < 2097152 := fun t l => by
    have := t.isLt; have := l.isLt; omega
  have hb' : ∀ (h : Fin 2) (j : Fin 128), h.val * 128 + j.val < 256 := fun h j => by
    have := h.isLt; have := j.isLt; omega
  refine Eq.trans ?_ (Cert.Lib.sum_blocks (T := 256) (L := 8192) (by norm_num) f hb)
  refine Eq.trans ?_ (Cert.Lib.sum_blocks (T := 2) (L := 128) (by norm_num)
    (fun t : Fin 256 => ∑ l : Fin 8192, f ⟨t.val * 8192 + l.val, hb t l⟩) hb')
  refine Finset.sum_congr rfl fun h _ => Finset.sum_congr rfl fun j _ => Finset.sum_congr rfl fun k _ =>
    congrArg f (Fin.ext ?_)
  show 8192 * (128 * h.val + j.val) + k.val = (h.val * 128 + j.val) * 8192 + k.val
  omega

/-! ## The definitions, as equations -/

theorem result_apply (c : Dev nD) (i : S2x1x1.Idx) : result m c i = halfTotal m c (i 0).val := rfl

theorem halfTotal_eq (c : Dev nD) (h : ℕ) :
    halfTotal m c h = zeroW + ∑ i ∈ Finset.range 128, lossN m c (128 * h + i) := rfl

/-- The result's indices are its two halves: the other two axes have one position each. -/
def halfEquiv : S2x1x1.Idx ≃ Fin 2 where
  toFun i := i 0
  invFun h := ix3 h (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- THE REGROUPING. If the loss of the block at every point t is the sum over k < 8192 of f at row 8192·t + k, then the
    two result elements summed from the zero word are the zero word plus the sum of f over all rows. -/
theorem kernel_total (c : Dev nD) (f : Fin 2097152 → EReal) (row : Fin cfg0.N → Fin 8192 → Fin 2097152)
    (hrow : ∀ t k, (row t k).val = 8192 * t.val + k.val)
    (hL : ∀ t : Fin cfg0.N, lossAt m c t = ∑ k : Fin 8192, f (row t k)) :
    zeroW + ∑ i : S2x1x1.Idx, result m c i = zeroW + ∑ r : Fin 2097152, f r := by
  have hN : cfg0.N = 256 := N_0
  have hhalf : ∀ h : Fin 2, halfTotal m c h.val
      = 0 + ∑ j : Fin 128, ∑ k : Fin 8192,
          f ⟨8192 * (128 * h.val + j.val) + k.val, by have := h.isLt; have := j.isLt; have := k.isLt; omega⟩ := by
    intro h
    rw [halfTotal_eq, Cert.HCE.zeroW_eq, Finset.sum_range]
    refine congrArg (0 + ·) (Finset.sum_congr rfl fun j _ => ?_)
    have hlt : 128 * h.val + j.val < cfg0.N :=
      lt_of_lt_of_eq (by have := h.isLt; have := j.isLt; omega) hN.symm
    rw [lossN_of_lt m c _ hlt, hL]
    refine Finset.sum_congr rfl fun k _ => congrArg f (Fin.ext ?_)
    rw [hrow]
  rw [Fintype.sum_equiv halfEquiv (result m c) (fun h : Fin 2 => halfTotal m c h.val) (fun i => result_apply m c i),
    Finset.sum_congr rfl (fun h _ => hhalf h)]
  simp only [zero_add]
  rw [regroup f]

end Cert.KernelIdeal.Loss

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.KerRow.lean ====
/-
  One block's loss, read row by row: the body's payload over its four loaded blocks is the sum over the block's
  8192 rows of the rows' losses `Cert.HCE.rowLoss`, when every target word of the block lies in 0 … 3.

  Read at an entry (k, c) of the 8192 × 16 block: the log-softmax payload is row k's log-softmax at class c; the
  one-hot of the targets is 1 exactly at the target's class, so the fine branch is minus the log-probability of the
  target class; the four indicator-weighted table rows add up to the table row of the target, so the coarse branch
  is minus the logarithm of the mass of the target's member classes plus ε; and the block's scalar is the sum over
  the rows of the select between the two.
-/
import proofs.«416918_j68959994904874_1_alg».proof.Proof.KerPieces
import proofs.«416918_j68959994904874_1_alg».proof.Proof.Spec
import proofs.«416918_j68959994904874_1_alg».proof.Proof.LibKeepdims
import Idealize.ShloMosaic.Lib.ValueLayout

noncomputable section

namespace Cert.KernelIdeal.Loss

open Idealize.ShloMosaic Idealize.ShloMosaic.ValueIdx Cert.KernelIdeal Cert.KernelIdeal.Gen

namespace KerRow

/-! ## The elementwise operations without a library lemma, at an index (definitional) -/

/-- An exponential at an index is the exponential of the element. -/
theorem exp_at {s : Shape} {φ : FTy} (x : FVec Ideal s φ) (i : s.Idx) : exp x i = Ideal.exp (x i) := rfl
/-- A logarithm at an index is the logarithm of the element. -/
theorem log_at {s : Shape} {φ : FTy} (x : FVec Ideal s φ) (i : s.Idx) : log x i = Ideal.log (x i) := rfl
/-- An integer comparison at an index compares the elements. -/
theorem cmpi_at {s : Shape} {w : Nat} (p : CmpIPredicate) (x y : IVec s w) (i : s.Idx) :
    cmpi p x y i = IntOp.cmpi p (x i) (y i) := rfl

/-! ## The log-softmax and the fine branch -/

/-- The logits block minus its rows' maxima (each cast to a column and broadcast along its row), at (k, c). -/
theorem shift_at (x0 : Vec Ideal S8192x16 .f32) (k : Fin 8192) (c : Fin 16) :
    subf (F := Ideal) (φ := .f32) x0 (broadcastTo S8192x16 (shapeCast S8192x1
        (multiReduction (F := Ideal) (φ := .f32) .maximumf [1] S8192 x0 0xFF800000#32 reduces_S8192x16_S8192 (.inl rfl) rfl)
        shapeCasts_S8192_S8192x1) broadcasts_S8192x1_S8192x16) (ix2 k c)
      = x0 (ix2 k c) - Cert.HCE.rowMax (fun c => x0 (ix2 k c)) := by
  rw [subf_apply, Cert.Keepdims.broadcastTo_a1_ab_apply, Cert.Keepdims.shapeCast_a_a1_apply, Cert.Keepdims.max_rows_f32,
    Cert.HCE.rowMax_def]

/-- The log-softmax of the block, at (k, c): row k's log-softmax at class c. -/
theorem pay3_at (x0 : Vec Ideal S8192x16 .f32) (k : Fin 8192) (c : Fin 16) :
    k0_pay3 (F := Ideal) x0 (ix2 k c) = Cert.HCE.lsm (fun c => x0 (ix2 k c)) c := by
  unfold k0_pay3
  rw [subf_apply, shift_at, Cert.Keepdims.broadcastTo_a1_ab_apply, log_at, Cert.Keepdims.shapeCast_a_a1_apply,
    Cert.Keepdims.add_rows_f32, Cert.HCE.lsm_def]
  refine congrArg (fun z => (x0 (ix2 k c) - Cert.HCE.rowMax fun c => x0 (ix2 k c)) - Ideal.log z)
    (Finset.sum_congr rfl fun j _ => ?_)
  rw [exp_at, shift_at]

/-- Its exponential, at (k, c). -/
theorem pay4_at (x0 : Vec Ideal S8192x16 .f32) (k : Fin 8192) (c : Fin 16) :
    k0_pay4 (F := Ideal) x0 (ix2 k c) = Ideal.exp (Cert.HCE.lsm (fun c => x0 (ix2 k c)) c) := by
  unfold k0_pay4
  rw [exp_at, pay3_at]

/-- The one-hot of the targets (class numbers along a row compared with the row's target word, widened and
    converted), at (k, c): 1 at the target's class, else 0. -/
theorem onehot_at (x1 : Vec Ideal S8192 .i32) (k : Fin 8192) (c : Fin 16)
    (h0 : 0 ≤ (x1 (ix1 k)).toInt) (h4 : (x1 (ix1 k)).toInt < 4) :
    (sitofp (F := Ideal) .f32 (extui 32 (cmpi .eq (iota .tc S8192x16 32 [1] iota_S8192x16_d1_w32)
        (broadcastTo S8192x16 (shapeCast S8192x1 x1 shapeCasts_S8192_S8192x1) broadcasts_S8192x1_S8192x16))
        natLt_1_32)) (ix2 k c)
      = if c = Cert.HCE.tgtClass (x1 (ix1 k)) then 1 else 0 := by
  rw [sitofp_apply, extui_apply, cmpi_at, iota_single_apply, Cert.Keepdims.broadcastTo_a1_ab_apply,
    Cert.Keepdims.shapeCast_a_a1_apply, Cert.HCE.indicator]
  show (if IntOp.cmpi .eq (BitVec.ofNat 32 c.val) (x1 (ix1 k)) = 1#1 then (1 : EReal) else 0) = _
  by_cases h : c = Cert.HCE.tgtClass (x1 (ix1 k))
  · rw [if_pos ((Cert.HCE.class_eq_iff _ h0 h4 c).2 h), if_pos h]
  · rw [if_neg (fun h' => h ((Cert.HCE.class_eq_iff _ h0 h4 c).1 h')), if_neg h]

/-- The fine branch of the block, at row k: minus the log-probability of row k's target class. -/
theorem pay5_at (x0 : Vec Ideal S8192x16 .f32) (x1 : Vec Ideal S8192 .i32) (k : Fin 8192)
    (h0 : 0 ≤ (x1 (ix1 k)).toInt) (h4 : (x1 (ix1 k)).toInt < 4) :
    k0_pay5 (F := Ideal) x0 x1 (ix1 k) = Cert.HCE.fine (fun c => x0 (ix2 k c)) (x1 (ix1 k)) := by
  unfold k0_pay5
  rw [subf_apply, broadcast_apply, Cert.Keepdims.add_rows_f32, Cert.HCE.fine_def]
  show Ideal.ofBits .f32 0x00000000#32 - _ = _
  rw [Ideal.ofBits_zero_f32, zero_sub]
  refine congrArg Neg.neg ?_
  rw [Finset.sum_eq_single (Cert.HCE.tgtClass (x1 (ix1 k)))]
  · rw [mulf_apply, pay3_at, onehot_at x1 k _ h0 h4, if_pos rfl, mul_one]
  · intro c _ hc
    rw [mulf_apply, onehot_at x1 k c h0 h4, if_neg hc, mul_zero]
  · intro h
    exact absurd (Finset.mem_univ _) h

/-! ## The mask: the table row of the target -/

/-- One term of the mask: the indicator of "the target word is o" (as a column, broadcast along the rows) times
    row o of the table (cut out, broadcast over the rows), at (k, c). -/
theorem term_at (x1 : Vec Ideal S8192 .i32) (x3 : Vec Ideal S4x16 .f32) (o : Nat) (ho : o < 4)
    (hs : S4x16.Slices ![o, 0] S1x16) (k : Fin 8192) (c : Fin 16)
    (h0 : 0 ≤ (x1 (ix1 k)).toInt) (h4 : (x1 (ix1 k)).toInt < 4) :
    mulf (F := Ideal) (φ := .f32)
        (broadcastTo S8192x16 (shapeCast S8192x1 (sitofp (F := Ideal) .f32
          (extui 32 (cmpi .eq x1 (broadcast S8192 (BitVec.ofNat 32 o))) natLt_1_32)) shapeCasts_S8192_S8192x1)
          broadcasts_S8192x1_S8192x16)
        (broadcastTo S8192x16 (shapeCast S1x16 (shapeCast S16 (extractStridedSlice S1x16 ![o, 0] x3 hs)
          shapeCasts_S1x16_S16) shapeCasts_S16_S1x16) broadcasts_S1x16_S8192x16) (ix2 k c)
      = (if Cert.HCE.tgt (x1 (ix1 k)) = ⟨o, ho⟩ then 1 else 0) * x3 (ix2 ⟨o, ho⟩ c) := by
  rw [mulf_apply, Cert.Keepdims.broadcastTo_a1_ab_apply, Cert.Keepdims.shapeCast_a_a1_apply, sitofp_apply, extui_apply,
    cmpi_at, broadcast_apply, Cert.HCE.indicator, broadcastTo_1b_ab_apply, shapeCast_a_1a_apply, shapeCast_1a_a_apply,
    slice2_axis0_apply o x3 hs 0 c ⟨o, ho⟩ rfl]
  by_cases h : Cert.HCE.tgt (x1 (ix1 k)) = ⟨o, ho⟩
  · rw [if_pos ((Cert.HCE.row_eq_iff _ h0 h4 ⟨o, ho⟩).2 h), if_pos h]
  · rw [if_neg (fun h' => h ((Cert.HCE.row_eq_iff _ h0 h4 ⟨o, ho⟩).1 h')), if_neg h]

/-- The mask's start: zero plus the term of table row 0. -/
theorem pay6_at (x1 : Vec Ideal S8192 .i32) (x3 : Vec Ideal S4x16 .f32) (k : Fin 8192) (c : Fin 16)
    (h0 : 0 ≤ (x1 (ix1 k)).toInt) (h4 : (x1 (ix1 k)).toInt < 4) :
    k0_pay6 (F := Ideal) x1 x3 (ix2 k c)
      = (if Cert.HCE.tgt (x1 (ix1 k)) = ⟨0, by omega⟩ then 1 else 0) * x3 (ix2 (⟨0, by omega⟩ : Fin 4) c) := by
  unfold k0_pay6
  rw [addf_apply, broadcast_apply, term_at x1 x3 0 (by omega) slices_S4x16_o0_0_S1x16 k c h0 h4]
  show Ideal.ofBits .f32 0x00000000#32 + _ = _
  rw [Ideal.ofBits_zero_f32, zero_add]

/-- Four indicator-weighted entries, one per row number, add up to the entry of the row picked. -/
theorem pick_row (f : Fin 4 → EReal) (s : Fin 4) :
    (if s = ⟨0, by omega⟩ then (1 : EReal) else 0) * f ⟨0, by omega⟩ + (if s = ⟨1, by omega⟩ then 1 else 0) * f ⟨1, by omega⟩
      + (if s = ⟨2, by omega⟩ then 1 else 0) * f ⟨2, by omega⟩ + (if s = ⟨3, by omega⟩ then 1 else 0) * f ⟨3, by omega⟩ = f s := by
  fin_cases s <;> simp

end KerRow

open KerRow

/-- THE BLOCK'S LOSS. Over the extended reals, with every target word of the block in 0 … 3, the body's scalar for a
    block (the sum it adds to the output element) is the sum of the 8192 rows' losses: row k's logits are row k of the
    logits block, its target and flag the k-th words, the table the whole 4 × 16 block. -/
theorem blockLoss_eq (x0 : Vec Ideal S8192x16 .f32) (x1 x2 : Vec Ideal S8192 .i32) (x3 : Vec Ideal S4x16 .f32)
    (hT : ∀ k : Fin 8192, 0 ≤ (x1 (ix1 k)).toInt ∧ (x1 (ix1 k)).toInt < 4) :
    blockLoss (F := Ideal) x0 x1 x2 x3
      = ∑ k : Fin 8192, Cert.HCE.rowLoss (fun s c => x3 (ix2 s c)) (fun c => x0 (ix2 k c)) (x1 (ix1 k)) (x2 (ix1 k)) := by
  unfold blockLoss
  unfold k0_pay8
  dsimp only
  -- the scalar is the one entry of the 1 × 1 array, which is the sum over the 8192 entries of the selected vector
  rw [Cert.Keepdims.extractAt_11, Cert.Keepdims.shapeCast_a_a1_apply, Cert.Keepdims.add_rows_f32]
  refine Finset.sum_congr rfl fun k _ => ?_
  obtain ⟨h0, h4⟩ := hT k
  -- entry k: the select on "the flag word is 1" between the fine branch and 0 − log(Σ_c exp(lsm c) · mask c + ε)
  rw [shapeCast_a_1a_apply, select_apply, cmpi_at, broadcast_apply, pay5_at x0 x1 k h0 h4, subf_apply, broadcast_apply,
    log_at, addf_apply, broadcast_apply, Cert.Keepdims.add_rows_f32, Cert.HCE.rowLoss_def, Cert.HCE.coarse_def]
  refine congrArg (Scalar.select (IntOp.cmpi .eq (x2 (ix1 k)) 1#32)
    (Cert.HCE.fine (fun c => x0 (ix2 k c)) (x1 (ix1 k)))) ?_
  show Ideal.ofBits .f32 0x00000000#32 - Ideal.log (_ + Cert.HCE.eps) = _
  rw [Ideal.ofBits_zero_f32, zero_sub]
  refine congrArg (fun z => -Ideal.log (z + Cert.HCE.eps)) (Finset.sum_congr rfl fun c _ => ?_)
  -- the mask at (k, c): the four indicator-weighted table rows pick the row of the target
  rw [mulf_apply, pay4_at, addf_apply, addf_apply, addf_apply, pay6_at x1 x3 k c h0 h4,
    show (k0_pay7 : IVec S8192 32) = broadcast S8192 (BitVec.ofNat 32 1) from rfl,
    term_at x1 x3 1 (by omega) slices_S4x16_o1_0_S1x16 k c h0 h4,
    term_at x1 x3 2 (by omega) slices_S4x16_o2_0_S1x16 k c h0 h4,
    term_at x1 x3 3 (by omega) slices_S4x16_o3_0_S1x16 k c h0 h4,
    pick_row (fun s => x3 (ix2 s c))]

end Cert.KernelIdeal.Loss

end
-- ==== Proof.KerBlocks.lean ====
/-
  A block's loss in terms of the argument arrays.

  At grid point t the logits window holds rows 8192·t … 8192·t + 8191 of the logits (its block index is t: half h, place j,
  block 128·h + j), the two vector windows hold the same rows' targets and flags, and the table window holds the whole
  4 × 16 table. So the block's loss is the sum of those rows' losses.
-/
import proofs.«416918_j68959994904874_1_alg».proof.Proof.KerAcc
import proofs.«416918_j68959994904874_1_alg».proof.Proof.KerRow

noncomputable section

namespace Cert.KernelIdeal.Loss

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The four argument arrays at their literal types. -/
abbrev arr0 (c : Dev nD) : S2097152x16.Idx → EReal := m ((c : Thread nD τ).loc main_arg0)
abbrev arr1 (c : Dev nD) : S2097152.Idx → BitVec 32 := m ((c : Thread nD τ).loc main_arg1)
abbrev arr2 (c : Dev nD) : S2097152.Idx → BitVec 32 := m ((c : Thread nD τ).loc main_arg2)
abbrev arr3 (c : Dev nD) : S4x16.Idx → EReal := m ((c : Thread nD τ).loc main_arg3)

theorem rowOf_lt (t : Fin cfg0.N) (k : Fin 8192) : 8192 * t.val + k.val < 2097152 := by
  have h1 : t.val < 256 := lt_of_lt_of_eq t.isLt N_0
  have h2 := k.isLt
  omega

/-- Row k of the block at point t, as a row of the whole array. -/
def rowOf (t : Fin cfg0.N) (k : Fin 8192) : Fin 2097152 := ⟨8192 * t.val + k.val, rowOf_lt t k⟩

theorem rowOf_val (t : Fin cfg0.N) (k : Fin 8192) : (rowOf t k).val = 8192 * t.val + k.val := rfl

/-- The windows' block indices at every grid point, decided once over the grid: the logits, target and flag windows
    are at block t (the logits' second axis at block 0), the table window at block (0, 0). -/
theorem idx_facts_in : ∀ t : Fin cfg0.N, win0_0.index t (0 : Fin 2) = t.val ∧ win0_0.index t (1 : Fin 2) = 0
    ∧ win0_1.index t (0 : Fin 1) = t.val ∧ win0_2.index t (0 : Fin 1) = t.val
    ∧ win0_3.index t (0 : Fin 2) = 0 ∧ win0_3.index t (1 : Fin 2) = 0 :=
  (by decide +kernel : ∀ t : Fin grid0.N, _)

/-- Element (k, cc) of the logits block at point t is element (8192·t + k, cc) of the logits. -/
theorem blk0_read (c : Dev nD) (t : Fin cfg0.N) (k : Fin 8192) (cc : Fin 16) :
    blk0 m c t (ix2 k cc) = arr0 m c (ix2 (rowOf t k) cc) := by
  obtain ⟨e0, e1, -, -, -, -⟩ := idx_facts_in t
  show iblk m c 0 t (ix2 k cc) = _
  unfold iblk
  show arr0 m c (((cfg0.win 0).blk t).view.emb (ix2 k cc)) = arr0 m c (ix2 (rowOf t k) cc)
  refine congrArg (arr0 m c) ?_
  funext a; apply Fin.ext
  match a with
  | ⟨0, _⟩ => show win0_0.index t (0 : Fin 2) * 8192 + 1 * k.val = 8192 * t.val + k.val; rw [e0]; omega
  | ⟨1, _⟩ => show win0_0.index t (1 : Fin 2) * 16 + 1 * cc.val = cc.val; rw [e1]; omega

/-- Element k of the targets block at point t is element 8192·t + k of the targets. -/
theorem blk1_read (c : Dev nD) (t : Fin cfg0.N) (k : Fin 8192) :
    blk1 m c t (ix1 k) = arr1 m c (ix1 (rowOf t k)) := by
  obtain ⟨-, -, e2, -, -, -⟩ := idx_facts_in t
  show iblk m c 1 t (ix1 k) = _
  unfold iblk
  show arr1 m c (((cfg0.win 1).blk t).view.emb (ix1 k)) = arr1 m c (ix1 (rowOf t k))
  refine congrArg (arr1 m c) ?_
  funext a; apply Fin.ext
  match a with
  | ⟨0, _⟩ => show win0_1.index t (0 : Fin 1) * 8192 + 1 * k.val = 8192 * t.val + k.val; rw [e2]; omega

/-- Element k of the flags block at point t is element 8192·t + k of the flags. -/
theorem blk2_read (c : Dev nD) (t : Fin cfg0.N) (k : Fin 8192) :
    blk2 m c t (ix1 k) = arr2 m c (ix1 (rowOf t k)) := by
  obtain ⟨-, -, -, e3, -, -⟩ := idx_facts_in t
  show iblk m c 2 t (ix1 k) = _
  unfold iblk
  show arr2 m c (((cfg0.win 2).blk t).view.emb (ix1 k)) = arr2 m c (ix1 (rowOf t k))
  refine congrArg (arr2 m c) ?_
  funext a; apply Fin.ext
  match a with
  | ⟨0, _⟩ => show win0_2.index t (0 : Fin 1) * 8192 + 1 * k.val = 8192 * t.val + k.val; rw [e3]; omega

/-- The table block at every point is the whole table. -/
theorem blk3_read (c : Dev nD) (t : Fin cfg0.N) (s : Fin 4) (cc : Fin 16) :
    blk3 m c t (ix2 s cc) = arr3 m c (ix2 s cc) := by
  obtain ⟨-, -, -, -, e4, e5⟩ := idx_facts_in t
  show iblk m c 3 t (ix2 s cc) = _
  unfold iblk
  show arr3 m c (((cfg0.win 3).blk t).view.emb (ix2 s cc)) = arr3 m c (ix2 s cc)
  refine congrArg (arr3 m c) ?_
  funext a; apply Fin.ext
  match a with
  | ⟨0, _⟩ => show win0_3.index t (0 : Fin 2) * 4 + 1 * s.val = s.val; rw [e4]; omega
  | ⟨1, _⟩ => show win0_3.index t (1 : Fin 2) * 16 + 1 * cc.val = cc.val; rw [e5]; omega

/-- THE BLOCK'S LOSS OVER THE ARGUMENTS. With every target word of the array in 0 … 3, the loss of the block at point t
    is the sum of the losses of rows 8192·t + k, k < 8192, of the argument arrays. -/
theorem lossAt_eq (c : Dev nD) (t : Fin cfg0.N)
    (hT : ∀ r : Fin 2097152, 0 ≤ (arr1 m c (ix1 r)).toInt ∧ (arr1 m c (ix1 r)).toInt < 4) :
    lossAt m c t = ∑ k : Fin 8192, Cert.HCE.rowLoss (fun s cc => arr3 m c (ix2 s cc))
      (fun cc => arr0 m c (ix2 (rowOf t k) cc)) (arr1 m c (ix1 (rowOf t k))) (arr2 m c (ix1 (rowOf t k))) := by
  unfold lossAt
  -- the block's targets are targets of the array, so they are in range
  rw [blockLoss_eq (blk0 m c t) (blk1 m c t) (blk2 m c t) (blk3 m c t)
    (fun k => by rw [blk1_read m c t k]; exact hT (rowOf t k))]
  refine Finset.sum_congr rfl fun k _ => ?_
  -- each of the four reads, at the arguments
  have e0 : (fun cc : Fin 16 => blk0 m c t (ix2 k cc)) = fun cc => arr0 m c (ix2 (rowOf t k) cc) :=
    funext fun cc => blk0_read m c t k cc
  have e3 : (fun (s : Fin 4) (cc : Fin 16) => blk3 m c t (ix2 s cc)) = fun s cc => arr3 m c (ix2 s cc) :=
    funext fun s => funext fun cc => blk3_read m c t s cc
  rw [e0, e3, blk1_read m c t k, blk2_read m c t k]

end Cert.KernelIdeal.Loss

end
-- ==== Proof.KerValue.lean ====
/-
  The kernel's run, read: under the targets' range the idealized kernel's result buffer ends at the mean loss
  `Cert.HCE.total` of the argument arrays, the arguments unchanged.
-/
import proofs.«416918_j68959994904874_1_alg».proof.Proof.KerTail
import proofs.«416918_j68959994904874_1_alg».proof.Proof.KerTotal
import proofs.«416918_j68959994904874_1_alg».proof.Proof.KerBlocks

noncomputable section

namespace Cert.KernelIdeal.Loss

open Idealize.ShloMosaic Idealize.ShloMosaic.TcCoe Idealize.ShloMosaic.ValueIdx Idealize.SL.Sem
open Idealize.ShloMosaic.Pipeline (Dat)
open Cert.KernelIdeal Cert.KernelIdeal.Gen
open Cert.HCE (zeroW nRows)

variable (m : (ℓ : Loc nD τ sig) → Buf (Elt Ideal) ℓ) (ρ : Dev nD → PrngReg)

/-- The mean loss of core c's argument arrays. -/
abbrev meanLoss (c : Dev nD) : EReal :=
  Cert.HCE.total (fun r cc => arr0 m c (ix2 r cc)) (fun r => arr1 m c (ix1 r)) (fun r => arr2 m c (ix1 r)) (fun s cc => arr3 m c (ix2 s cc))

/-- The program's result buffer after the region and the host tail is the mean loss. -/
theorem value_eq (c : Dev nD) (hT : ∀ r : Fin 2097152, 0 ≤ (arr1 m c (ix1 r)).toInt ∧ (arr1 m c (ix1 r)).toInt < 4) :
    Pipeline.afterTail₀ cfgs (dats m) 0 (V0 m) [hostOps1] c main_v2 = fun _ => meanLoss m c := by
  rw [tail_eq]
  funext j
  rw [kernel_total m c (fun r => Cert.HCE.rowLoss (fun s cc => arr3 m c (ix2 s cc)) (fun cc => arr0 m c (ix2 r cc)) (arr1 m c (ix1 r)) (arr2 m c (ix1 r)))
    rowOf rowOf_val (fun t => lossAt_eq m c t hT)]
  rfl

/-- THE RUN, READ: every weakly fair execution terminates with the result buffer at the mean loss and the four argument
    arrays unchanged. -/
theorem run (hT : ∀ (c : Dev nD) (r : Fin 2097152), 0 ≤ (arr1 m c (ix1 r)).toInt ∧ (arr1 m c (ix1 r)).toInt < 4) :
    θ_run defs (onTc (τ := τ) (main (F := Ideal))) ⟨m, fun _ => 0, ρ⟩ fun r => ∀ c : Dev nD,
      r.2.mem ((c.tc : Thread nD τ).loc main_v2) = (fun _ => meanLoss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (by decide)).trans (value_eq m c (hT c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Loss

end
-- ==== Proof.LibTakeAlong.lean ====
/-
  A take along the class axis, one column, read at an index.

  `jnp.take_along_axis(x, i, axis = 1)` over an [N × C] array and an [N × 1] column of class numbers is a
  `stablehlo.gather` whose start indices are the [N × 1 × 1] array of those numbers: axis 0 of the operand is a
  BATCHING axis, paired with axis 0 of the start indices (row p of the result reads row p of the operand), axis 1 of
  the operand is collapsed and start-indexed, there is no offset axis, and the index vector lies on axis 2. Entry
  (p, u) of the result is the operand's row p at the column that row p's start index names, read signed and clamped
  into 0 … C − 1.
-/
import Idealize.ShloMosaic.Lib.ValueIdx
import Idealize.ShloMosaic.PureOps.ShapeOps
import Idealize.ShloMosaic.PureOps.Dims

noncomputable section

namespace Cert.Lib

open Idealize.ShloMosaic Idealize.ShloMosaic.ValueIdx

/-- Equal lists read at equal positions give equal entries. -/
theorem getElem_congr_both {β : Type} {l l' : List β} {k k' : Nat} (hl : l = l') (hk : k = k') (h : k < l.length)
    (h' : k' < l'.length) : l[k] = l'[k'] := by
  subst hl; subst hk; rfl

/-- With no offset axis, both axes of an [N × 1] result are batch axes, in order. -/
theorem along_batchDims {N C : Nat} (d : GatherDims ⟨2, ![N, C]⟩ ⟨3, ![N, 1, 1]⟩ ⟨2, ![N, 1]⟩)
    (hoff : d.offsetDims = []) : d.batchDims = [0, 1] := by
  show Shape.kept _ d.offsetDims = _
  rw [hoff]
  rfl

/-- With the index vector on axis 2, the start indices' other axes are 0 and 1, in order. -/
theorem along_siKept {N C : Nat} (d : GatherDims ⟨2, ![N, C]⟩ ⟨3, ![N, 1, 1]⟩ ⟨2, ![N, 1]⟩)
    (hivd : d.indexVectorDim = 2) : d.siKept = [0, 1] := by
  show (List.finRange 3).filter (fun b => decide (b.val ≠ d.indexVectorDim)) = _
  rw [hivd]
  rfl

/-- The coordinate that result index (p, u) gives the start indices' axis 0 is p: axis 0 is the first of the start
    indices' axes other than the index vector's, and the result's first batch axis is its axis 0. -/
theorem along_siCoord0 {N C : Nat} (d : GatherDims ⟨2, ![N, C]⟩ ⟨3, ![N, 1, 1]⟩ ⟨2, ![N, 1]⟩)
    (hoff : d.offsetDims = []) (hivd : d.indexVectorDim = 2) (p : Fin N) (u : Fin 1)
    (hb : (0 : Fin 3) ∈ d.siKept) : (d.siCoord (ix2 p u) 0 hb).val = p.val := by
  unfold GatherDims.siCoord
  simp only [Fin.val_cast]
  have hk : d.siKept.idxOf (0 : Fin 3) = 0 := by rw [along_siKept d hivd]; rfl
  have e : ∀ h, d.batchDims[d.siKept.idxOf (0 : Fin 3)]'h = (0 : Fin 2) := fun h =>
    getElem_congr_both (l' := [0, 1]) (k' := 0) (along_batchDims d hoff) hk h (by simp)
  rw [e]

/-- A TAKE ALONG THE SECOND AXIS, ONE COLUMN. A gather from an [N × C] array at an [N × 1 × 1] array of start indices
    whose axis 0 is the batching axis paired with the operand's axis 0, the operand's axis 1 collapsed and
    start-indexed, no offset axis, the index vector on axis 2, slices of one element: entry (p, u) is the operand's
    row p at column (row p's start index read SIGNED and CLAMPED into 0 … C − 1). -/
theorem gather_along_col {α : Type} {N C w : Nat} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (p : Fin N) (u : Fin 1) (hC : 0 < C) :
    Host.gather d x idx (ix2 p u)
      = x (ix2 p ⟨min (idx (ix3 p (0 : Fin 1) (0 : Fin 1))).toInt.toNat (C - 1), by omega⟩) := by
  unfold Host.gather
  congr 1
  funext a
  apply Fin.ext
  match a with
  | ⟨0, _⟩ =>
    -- the batching axis: no start, no offset coordinate; the batching coordinate is the result's row
    have hb0 : (0 : Fin 2) ∈ d.operandBatchingDims := by rw [hob]; exact List.mem_singleton.mpr rfl
    have hk0 : (0 : Fin 2) ∉ d.sKept := by rw [GatherDims.mem_sKept]; exact fun h => h.2 hb0
    show (d.operandIdx (ix2 p u) idx 0).val = p.val
    simp only [GatherDims.operandIdx, GatherDims.start_batching _ _ _ _ hb0, GatherDims.offCoord_eq_zero _ _ _ hk0,
      Nat.add_zero, Nat.zero_add]
    unfold GatherDims.batchCoord
    rw [dif_pos hb0]
    -- the start indices' batching axis paired with the operand's axis 0 is their axis 0
    have hsbAll : ∀ y ∈ d.startIndicesBatchingDims, y = 0 := by
      intro y hy; rw [hsb] at hy; exact List.mem_singleton.1 hy
    have key : ∀ (b : Fin 3) (hb : b ∈ d.siKept), b = 0 → (d.siCoord (ix2 p u) b hb).val = p.val := by
      rintro b hb rfl
      exact along_siCoord0 d hoff hivd p u hb
    exact key _ _ (hsbAll _ (List.getElem_mem _))
  | ⟨1, _⟩ =>
    -- the class axis: the clamped start index; no batching and no offset coordinate
    have hb1 : (1 : Fin 2) ∉ d.operandBatchingDims := by rw [hob]; simp
    have hk1 : (1 : Fin 2) ∉ d.sKept := by
      rw [GatherDims.mem_sKept, hcoll]; exact fun h => h.1 (List.mem_singleton.mpr rfl)
    have hm : (1 : Fin 2) ∈ d.startIndexMap := by rw [hsim]; exact List.mem_singleton.mpr rfl
    have hsl : d.sliceSizes 1 = 1 := d.slice_collapsed 1 (by rw [hcoll]; exact List.mem_singleton.mpr rfl)
    -- the start index of result index (p, u) is read at (p, 0, 0)
    have hsi : ∀ c, d.siIdx (ix2 p u) c = ix3 p (0 : Fin 1) (0 : Fin 1) := by
      intro c
      funext b
      match b with
      | ⟨0, _⟩ =>
        unfold GatherDims.siIdx
        rw [dif_neg (by rw [hivd]; simp)]
        apply Fin.ext
        exact along_siCoord0 d hoff hivd p u _
      | ⟨1, _⟩ => exact Subsingleton.elim (α := Fin 1) _ _
      | ⟨2, _⟩ => exact Subsingleton.elim (α := Fin 1) _ _
    show (d.operandIdx (ix2 p u) idx 1).val = _
    simp only [GatherDims.operandIdx, GatherDims.batchCoord_eq_zero _ _ _ hb1, GatherDims.offCoord_eq_zero _ _ _ hk1,
      Nat.add_zero, GatherDims.start, dif_pos hm]
    rw [hsi, hsl]
    rfl

end Cert.Lib

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.RefValue.lean ====
/-
  The reference's result, read: under the targets' range, the value of @main's last operation is the mean loss
  `Cert.HCE.total` of the four argument arrays.
-/
import proofs.«416918_j68959994904874_1_alg».proof.Proof.RefRead
import proofs.«416918_j68959994904874_1_alg».proof.Proof.Spec
import proofs.«416918_j68959994904874_1_alg».proof.Proof.LibKeepdims
import proofs.«416918_j68959994904874_1_alg».proof.Proof.LibTakeAlong
import proofs.«416918_j68959994904874_1_alg».proof.Proof.LibGatherRows
import proofs.«416918_j68959994904874_1_alg».proof.Proof.LibWrapTake

noncomputable section

namespace Cert.ReferenceIdeal.Loss

open Idealize.ShloMosaic Idealize.ShloMosaic.ValueIdx Cert.ReferenceIdeal Cert.ReferenceIdeal.Gen

open Cert.ReferenceIdeal.ReadP

/-! ## Indices: the printed index maps at coordinates -/

/-- A column index (r, u) of the one-column array reads the vector at r. -/
theorem idx_col_row (r : Fin 2097152) (u : Fin 1) : idx_main_call0_v3 (ix2 r u) = ix1 r := by
  funext a; match a with | ⟨0, _⟩ => rfl

/-- An entry index (r, c) of the full array reads the one-column array at (r, 0). -/
theorem idx_full_col (r : Fin 2097152) (c : Fin 16) : idx_main_call0_v4 (ix2 r c) = ix2 r (0 : Fin 1) := by
  funext a; match a with | ⟨0, _⟩ => rfl | ⟨1, _⟩ => rfl

/-- The same two index maps where the printed program names them a second time (the logarithm's column). -/
theorem idx_col_row' (r : Fin 2097152) (u : Fin 1) : idx_main_call0_v8 (ix2 r u) = ix1 r := by
  funext a; match a with | ⟨0, _⟩ => rfl

theorem idx_full_col' (r : Fin 2097152) (c : Fin 16) : idx_main_call0_v10 (ix2 r c) = ix2 r (0 : Fin 1) := by
  funext a; match a with | ⟨0, _⟩ => rfl | ⟨1, _⟩ => rfl

/-- The k-th summand of row r's sum is the entry (r, k). -/
theorem idx_row_sum (r : Fin 2097152) (k : Fin 16) : idx_main_call0_v7 (ix1 r) k = ix2 r k := by
  funext a; match a with | ⟨0, _⟩ => rfl | ⟨1, _⟩ => rfl

/-! ## The row maximum -/

/-- The reduce by maximum over the class axis, at row r: the fold of max from −∞ over the row. -/
theorem rowmax0 (x0 : (⟨S2097152x16, .f32⟩ : BufTy).Contents (Elt Ideal)) (r : Fin 2097152) :
    val_main_call0_v0 (F := Ideal) x0 (ix1 r) = Cert.HCE.rowMax (fun c => x0 (ix2 r c)) := by
  unfold val_main_call0_v0
  have hR : S2097152x16.Reduces [1] S2097152 := by
    obtain ⟨h, hs⟩ := Facts₀.reducesTo_S2097152x16_S2097152_d1
    exact ⟨h, Nat.one_pos, hs⟩
  rw [Cert.Keepdims.hostReduce_max_rows (φ := .f32) x0 (val_main_call0_cst (F := Ideal)) Facts₀.reducesTo_S2097152x16_S2097152_d1 hR Facts₀.h_S_ r]
  rfl

/-- The maximum with −∞ that follows changes nothing: the row's maximum. -/
theorem rowmax2 (x0 : (⟨S2097152x16, .f32⟩ : BufTy).Contents (Elt Ideal)) (r : Fin 2097152) :
    val_main_call0_v2 (F := Ideal) x0 (ix1 r) = Cert.HCE.rowMax (fun c => x0 (ix2 r c)) := by
  rw [val_main_call0_v2_apply, val_main_call0_v1_apply, val_main_call0_cst_0_apply, rowmax0]
  show max Cert.HCE.negInf (Cert.HCE.rowMax fun c => x0 (ix2 r c)) = _
  rw [Cert.HCE.rowMax_def]
  exact max_eq_right (Finset.le_fold_max _ |>.2 (Or.inl le_rfl))

/-- The shifted entry: the logit minus its row's maximum. -/
theorem shifted (x0 : (⟨S2097152x16, .f32⟩ : BufTy).Contents (Elt Ideal)) (r : Fin 2097152) (c : Fin 16) :
    val_main_call0_v5 (F := Ideal) x0 (ix2 r c) = x0 (ix2 r c) - Cert.HCE.rowMax (fun c' => x0 (ix2 r c')) := by
  rw [val_main_call0_v5_apply, val_main_call0_v4_apply, idx_full_col, val_main_call0_v3_apply, idx_col_row, rowmax2]
  rfl

/-- The log-softmax at (r, c). -/
theorem lsm_read (x0 : (⟨S2097152x16, .f32⟩ : BufTy).Contents (Elt Ideal)) (r : Fin 2097152) (c : Fin 16) :
    val_main_v0 (F := Ideal) x0 (ix2 r c) = Cert.HCE.lsm (fun c' => x0 (ix2 r c')) c := by
  rw [val_main_v0_apply, shifted, val_main_call0_v10_apply, idx_full_col', val_main_call0_v9_apply, val_main_call0_v8_apply,
    idx_col_row', val_main_call0_v7_apply, val_main_call0_cst_1_apply, Cert.HCE.lsm_def]
  have hs : ∀ k : Fin 16, val_main_call0_v6 (F := Ideal) x0 (idx_main_call0_v7 (ix1 r) k)
      = Ideal.exp (x0 (ix2 r k) - Cert.HCE.rowMax (fun c' => x0 (ix2 r c'))) := by
    intro k
    rw [idx_row_sum, val_main_call0_v6_apply, shifted]
    rfl
  rw [Finset.sum_congr rfl (fun k _ => hs k)]
  show (x0 (ix2 r c) - _) - Ideal.log (Ideal.ofBits .f32 0x00000000#32 + _) = _
  rw [Ideal.ofBits_zero_f32, zero_add]

/-! ## The target words: numpy's wrap does nothing on a non-negative word -/

theorem zero_toInt : (0#32 : BitVec 32).toInt = 0 := by decide

/-- The word "t + N if t < 0, else t" is t when t is not negative. -/
theorem wrap_id (t N : BitVec 32) (h0 : 0 ≤ t.toInt) :
    Scalar.select (IntOp.cmpi .slt t 0#32) (IntOp.addi t N) t = t := by
  have hc : IntOp.cmpi .slt t 0#32 = 0#1 :=
    eq_zero_of_ne_one (fun h => by have := IntOp.cmpi_slt.1 h; rw [zero_toInt] at this; omega)
  rw [hc, select_zero]

theorem idx_tcol (r : Fin 2097152) (u : Fin 1) : idx_main_v1 (ix2 r u) = ix1 r := by
  funext a; match a with | ⟨0, _⟩ => rfl

/-- The wrapped class number of row r, as a column: the target word itself. -/
theorem wrapped_col (x1 : (⟨S2097152, .i32⟩ : BufTy).Contents (Elt Ideal)) (h0 : ∀ r : Fin 2097152, 0 ≤ (x1 (ix1 r)).toInt)
    (r : Fin 2097152) (u : Fin 1) : val_main_call1_v4 (F := Ideal) x1 (ix2 r u) = x1 (ix1 r) := by
  rw [val_main_call1_v4_apply, val_main_call1_v1_apply, val_main_call1_v3_apply, val_main_v1_apply, idx_tcol,
    val_main_call1_v0_apply, val_main_call1_c_apply]
  exact wrap_id _ _ (h0 r)

theorem idx_tcube (r : Fin 2097152) (a b : Fin 1) : idx_main_call1_v5 (ix3 r a b) = ix2 r (0 : Fin 1) := by
  funext d
  match d with
  | ⟨0, _⟩ =>
    apply Fin.ext
    show ((r.val * 1 + a.val) * 1 + b.val) / 1 = r.val
    have := a.isLt; have := b.isLt; omega
  | ⟨1, _⟩ => rfl

/-- The start index of the take at (r, ·, ·): the target word of row r. -/
theorem take_idx (x1 : (⟨S2097152, .i32⟩ : BufTy).Contents (Elt Ideal)) (h0 : ∀ r : Fin 2097152, 0 ≤ (x1 (ix1 r)).toInt)
    (r : Fin 2097152) (a b : Fin 1) : val_main_call1_v5 (F := Ideal) x1 (ix3 r a b) = x1 (ix1 r) := by
  rw [val_main_call1_v5_apply, idx_tcube, wrapped_col x1 h0]

/-- Under the range a start index passes both tests "0 ≤ ·" and "· ≤ 15". -/
theorem mask_entry (x1 : (⟨S2097152, .i32⟩ : BufTy).Contents (Elt Ideal))
    (hT : ∀ r : Fin 2097152, 0 ≤ (x1 (ix1 r)).toInt ∧ (x1 (ix1 r)).toInt < 4) (r : Fin 2097152) (a b : Fin 1) :
    val_main_call1_v11 (F := Ideal) x1 (ix3 r a b) = 1#1 := by
  rw [val_main_call1_v11_apply, val_main_call1_v7_apply, val_main_call1_v10_apply, take_idx x1 (fun r => (hT r).1),
    val_main_call1_v6_apply, val_main_call1_c_2_apply, val_main_call1_v9_apply, val_main_call1_v8_apply, val_main_call1_c_1_apply]
  have h15 : (15#32 : BitVec 32).toInt = 15 := by decide
  exact IntOp.andi_eq_one.2 ⟨IntOp.cmpi_sge.2 (by rw [zero_toInt]; exact (hT r).1),
    IntOp.cmpi_sle.2 (by rw [h15]; have := (hT r).2; omega)⟩

/-- So the take's in-range mask, the and of those tests along the last axis, is 1 everywhere. -/
theorem mask_one (x1 : (⟨S2097152, .i32⟩ : BufTy).Contents (Elt Ideal))
    (hT : ∀ r : Fin 2097152, 0 ≤ (x1 (ix1 r)).toInt ∧ (x1 (ix1 r)).toInt < 4) (j : S2097152x1.Idx) :
    val_main_call1_v12 (F := Ideal) x1 j = 1#1 := by
  unfold val_main_call1_v12
  refine Cert.LibWrapTake.reduce_andi_one_of_all _ _ _ _ (fun k => rfl) (fun i => ?_) j
  exact (congrArg (val_main_call1_v11 (F := Ideal) x1) (eq_ix3 (n0 := 2097152) (n1 := 1) (n2 := 1) i)).trans
    (mask_entry x1 hT (i 0) (i 1) (i 2))

/-- The take along the class axis at row r: the log-softmax at the target's class. -/
theorem take_read (x0 : (⟨S2097152x16, .f32⟩ : BufTy).Contents (Elt Ideal)) (x1 : (⟨S2097152, .i32⟩ : BufTy).Contents (Elt Ideal))
    (hT : ∀ r : Fin 2097152, 0 ≤ (x1 (ix1 r)).toInt ∧ (x1 (ix1 r)).toInt < 4) (r : Fin 2097152) (u : Fin 1) :
    val_main_call1_v13 (F := Ideal) x0 x1 (ix2 r u)
      = Cert.HCE.lsm (fun c' => x0 (ix2 r c')) (Cert.HCE.tgtClass (x1 (ix1 r))) := by
  unfold val_main_call1_v13
  rw [Cert.Lib.gather_along_col gather_S2097152x16_S2097152x1x1_S2097152x1_n_1_0_0_1_2_11 rfl rfl rfl rfl rfl rfl
    (val_main_v0 (F := Ideal) x0) (val_main_call1_v5 (F := Ideal) x1) r u (by decide)]
  have hc : ∀ h, (⟨min (val_main_call1_v5 (F := Ideal) x1 (ix3 r (0 : Fin 1) (0 : Fin 1))).toInt.toNat (16 - 1), h⟩ : Fin 16)
      = Cert.HCE.tgtClass (x1 (ix1 r)) := by
    intro h
    apply Fin.ext
    show min (val_main_call1_v5 (F := Ideal) x1 (ix3 r (0 : Fin 1) (0 : Fin 1))).toInt.toNat (16 - 1) = min (x1 (ix1 r)).toInt.toNat 3
    rw [take_idx x1 (fun r => (hT r).1)]
    have := (hT r).1; have := (hT r).2; omega
  rw [hc, lsm_read]

theorem idx_tflat (r : Fin 2097152) : idx_main_v3 (ix1 r) = ix2 r (0 : Fin 1) := by
  funext d
  match d with
  | ⟨0, _⟩ => exact Fin.ext (Nat.div_one _)
  | ⟨1, _⟩ => rfl

/-- The fine branch at row r. -/
theorem fine_read (x0 : (⟨S2097152x16, .f32⟩ : BufTy).Contents (Elt Ideal)) (x1 : (⟨S2097152, .i32⟩ : BufTy).Contents (Elt Ideal))
    (hT : ∀ r : Fin 2097152, 0 ≤ (x1 (ix1 r)).toInt ∧ (x1 (ix1 r)).toInt < 4) (r : Fin 2097152) :
    val_main_v4 (F := Ideal) x0 x1 (ix1 r) = Cert.HCE.fine (fun c' => x0 (ix2 r c')) (x1 (ix1 r)) := by
  rw [val_main_v4_apply, val_main_v3_apply, idx_tflat, val_main_v2_apply, mask_one x1 hT, select_one, take_read x0 x1 hT,
    Cert.HCE.fine_def]
  rfl

/-! ## The coarse branch -/

theorem idx_rcol (r : Fin 2097152) (u : Fin 1) : idx_main_v10 (ix2 r u) = ix1 r := by
  funext a; match a with | ⟨0, _⟩ => rfl

/-- The wrapped table row number of row r: the target word itself. -/
theorem wrapped_row (x1 : (⟨S2097152, .i32⟩ : BufTy).Contents (Elt Ideal)) (h0 : ∀ r : Fin 2097152, 0 ≤ (x1 (ix1 r)).toInt)
    (r : Fin 2097152) : val_main_v9 (F := Ideal) x1 (ix1 r) = x1 (ix1 r) := by
  rw [val_main_v9_apply, val_main_v6_apply, val_main_v8_apply, val_main_v5_apply, val_main_c_apply]
  exact wrap_id _ _ (h0 r)

/-- The gathered table rows at (r, k): the table's row of the target, at column k. -/
theorem table_read (x1 : (⟨S2097152, .i32⟩ : BufTy).Contents (Elt Ideal)) (x3 : (⟨S4x16, .f32⟩ : BufTy).Contents (Elt Ideal))
    (hT : ∀ r : Fin 2097152, 0 ≤ (x1 (ix1 r)).toInt ∧ (x1 (ix1 r)).toInt < 4) (r : Fin 2097152) (k : Fin 16) :
    val_main_v11 (F := Ideal) x1 x3 (ix2 r k) = x3 (ix2 (Cert.HCE.tgt (x1 (ix1 r))) k) := by
  unfold val_main_v11
  rw [Cert.Lib.gather_rows gather_S4x16_S2097152x1_S2097152x16_1_0_n_n_0_1_116 rfl rfl rfl rfl rfl
    x3 (val_main_v10 (F := Ideal) x1) r k (by decide)]
  have hc : ∀ h, (⟨min (val_main_v10 (F := Ideal) x1 (ix2 r (0 : Fin 1))).toInt.toNat (4 - 1), h⟩ : Fin 4)
      = Cert.HCE.tgt (x1 (ix1 r)) := by
    intro h
    apply Fin.ext
    show min (val_main_v10 (F := Ideal) x1 (ix2 r (0 : Fin 1))).toInt.toNat (4 - 1) = min (x1 (ix1 r)).toInt.toNat 3
    rw [val_main_v10_apply, idx_rcol, wrapped_row x1 (fun r => (hT r).1)]
  rw [hc]

theorem idx_row_sum' (r : Fin 2097152) (k : Fin 16) : idx_main_v14 (ix1 r) k = ix2 r k := by
  funext a; match a with | ⟨0, _⟩ => rfl | ⟨1, _⟩ => rfl

/-- The coarse branch at row r. -/
theorem coarse_read (x0 : (⟨S2097152x16, .f32⟩ : BufTy).Contents (Elt Ideal)) (x1 : (⟨S2097152, .i32⟩ : BufTy).Contents (Elt Ideal))
    (x3 : (⟨S4x16, .f32⟩ : BufTy).Contents (Elt Ideal))
    (hT : ∀ r : Fin 2097152, 0 ≤ (x1 (ix1 r)).toInt ∧ (x1 (ix1 r)).toInt < 4) (r : Fin 2097152) :
    val_main_v18 (F := Ideal) x0 x1 x3 (ix1 r)
      = Cert.HCE.coarse (fun s c => x3 (ix2 s c)) (fun c' => x0 (ix2 r c')) (x1 (ix1 r)) := by
  rw [val_main_v18_apply, val_main_v17_apply, val_main_v16_apply, val_main_v15_apply, val_main_cst_1_apply, val_main_v14_apply,
    val_main_cst_apply, Cert.HCE.coarse_def]
  have hs : ∀ k : Fin 16, val_main_v13 (F := Ideal) x0 x1 x3 (idx_main_v14 (ix1 r) k)
      = Ideal.exp (Cert.HCE.lsm (fun c' => x0 (ix2 r c')) k) * x3 (ix2 (Cert.HCE.tgt (x1 (ix1 r))) k) := by
    intro k
    rw [idx_row_sum', val_main_v13_apply, val_main_v12_apply, lsm_read, table_read x1 x3 hT]
    rfl
  rw [Finset.sum_congr rfl (fun k _ => hs k)]
  show -(Ideal.log ((Ideal.ofBits .f32 0x00000000#32 + _) + Cert.HCE.eps)) = _
  rw [Ideal.ofBits_zero_f32, zero_add]

/-! ## A row's loss, and the mean -/

/-- The selected loss at row r. -/
theorem rowloss_read (x0 : (⟨S2097152x16, .f32⟩ : BufTy).Contents (Elt Ideal)) (x1 x2 : (⟨S2097152, .i32⟩ : BufTy).Contents (Elt Ideal))
    (x3 : (⟨S4x16, .f32⟩ : BufTy).Contents (Elt Ideal))
    (hT : ∀ r : Fin 2097152, 0 ≤ (x1 (ix1 r)).toInt ∧ (x1 (ix1 r)).toInt < 4) (r : Fin 2097152) :
    val_main_v21 (F := Ideal) x0 x1 x2 x3 (ix1 r)
      = Cert.HCE.rowLoss (fun s c => x3 (ix2 s c)) (fun c' => x0 (ix2 r c')) (x1 (ix1 r)) (x2 (ix1 r)) := by
  rw [val_main_v21_apply, val_main_v20_apply, val_main_v19_apply, val_main_c_2_apply, fine_read x0 x1 hT,
    coarse_read x0 x1 x3 hT, Cert.HCE.rowLoss_def]

/-- The indices of a vector of n entries are its n positions. -/
def vecIdxEquiv {n : Nat} : (⟨1, ![n]⟩ : Shape).Idx ≃ Fin n where
  toFun i := i 0
  invFun := ix1
  left_inv i := (eq_ix1 i).symm
  right_inv _ := rfl

/-- THE REFERENCE'S VALUE. With every target word in 0 … 3, the reference's result (the stage `val_main_v23` of its
    run) is the mean over the rows of the rows' losses. -/
theorem ref_value (x0 : (⟨S2097152x16, .f32⟩ : BufTy).Contents (Elt Ideal)) (x1 x2 : (⟨S2097152, .i32⟩ : BufTy).Contents (Elt Ideal))
    (x3 : (⟨S4x16, .f32⟩ : BufTy).Contents (Elt Ideal))
    (hT : ∀ r : Fin 2097152, 0 ≤ (x1 (ix1 r)).toInt ∧ (x1 (ix1 r)).toInt < 4) :
    Cert.ReferenceIdeal.ReadP.val_main_v23 (F := Ideal) x0 x1 x2 x3
      = fun _ => Cert.HCE.total (fun r c => x0 (ix2 r c)) (fun r => x1 (ix1 r)) (fun r => x2 (ix1 r)) (fun s c => x3 (ix2 s c)) := by
  funext i
  rw [val_main_v23_apply, val_main_v22_apply, val_main_cst_3_apply, val_main_cst_4_apply, Cert.HCE.total_def]
  have hsum : ∑ j : S2097152.Idx, val_main_v21 (F := Ideal) x0 x1 x2 x3 j
      = ∑ r : Fin 2097152, Cert.HCE.rowLoss (fun s c => x3 (ix2 s c)) (fun c' => x0 (ix2 r c')) (x1 (ix1 r)) (x2 (ix1 r)) := by
    refine Fintype.sum_equiv vecIdxEquiv _ _ (fun j => ?_)
    rw [eq_ix1 j]
    exact rowloss_read x0 x1 x2 x3 hT (j 0)
  rw [hsum]
  rfl

end Cert.ReferenceIdeal.Loss

end
-- ==== Proof.PreRange.lean ====
/-
  The precondition, read: where the printed predicate `finite_inputs` is all ones, every target word lies in 0 … 3
  (its last two conjuncts are the and-reductions of "target ≥ 0" and of "target < 4" over all rows).
-/
import proofs.«416918_j68959994904874_1_alg».proof.Pre_finite_inputs
import Idealize.ShloMosaic.Lib.ValueIdx
import Idealize.ShloMosaic.Lib.Affine
import Idealize.ShloMosaic.Lib.ReduceAll
import Idealize.ShloMosaic.Lib.StableHlo.Predicate

noncomputable section

namespace Cert.PreRange

open Idealize.ShloMosaic Idealize.ShloMosaic.ValueIdx Cert.Pre_finite_inputs

/-- The result shape of a full reduction has exactly one index. -/
instance subsingleton_scalar_idx : Subsingleton S_.Idx := ⟨fun a b => funext fun d => d.elim0⟩

/-- Where the precondition holds, every target word, read signed, is at least 0 and less than 4. -/
theorem targets_in_range [Cert.Pre_finite_inputs.Facts] (x0 : FVec Ideal S2097152x16 .f32) (x1 x2 : IVec S2097152 32) (x3 : FVec Ideal S4x16 .f32)
    (h : Cert.Pre_finite_inputs.fn (F := Ideal) x0 x1 x2 x3 = fun _ => 1#1) :
    ∀ r : Fin 2097152, 0 ≤ (x1 (ix1 r)).toInt ∧ (x1 (ix1 r)).toInt < 4 := by
  intro r
  -- the predicate at its one index: a conjunction of four words
  have h0 := congrFun h ix0
  dsimp only [Cert.Pre_finite_inputs.fn, Cert.Pre_finite_inputs.fn_part1] at h0
  -- split off the last two conjuncts: "all targets ≥ 0" and "all targets < 4"
  obtain ⟨h12, hD⟩ := IntOp.andi_eq_one.1 h0
  obtain ⟨-, hC⟩ := IntOp.andi_eq_one.1 h12
  -- an and-reduction that is 1 met a 1 at every row
  have hge := Host.reduce_andi_all _ _ _ _ _ hC (ix1 r)
  have hlt := Host.reduce_andi_all _ _ _ _ _ hD (ix1 r)
  -- the compared constant, broadcast from a scalar, reads as its word at every row
  have e0 : broadcastInDim S2097152 ![] Facts.bcast_S_S2097152 (constantI S_ 32 0#32) (ix1 r) = 0#32 := by
    rw [StableHlo.Predicate.bcast_scalar _ Facts.h_S_]; rfl
  have e4 : broadcastInDim S2097152 ![] Facts.bcast_S_S2097152 (constantI S_ 32 4#32) (ix1 r) = 4#32 := by
    rw [StableHlo.Predicate.bcast_scalar _ Facts.h_S_]; rfl
  -- a signed comparison that is 1 orders its operands' signed values
  have hge' : (0#32 : BitVec 32).toInt ≤ (x1 (ix1 r)).toInt := by
    have := IntOp.cmpi_sge.1 hge
    rwa [e0] at this
  have hlt' : (x1 (ix1 r)).toInt < (4#32 : BitVec 32).toInt := by
    have := IntOp.cmpi_slt.1 hlt
    rwa [e4] at this
  have z0 : (0#32 : BitVec 32).toInt = 0 := by decide
  have z4 : (4#32 : BitVec 32).toInt = 4 := by decide
  rw [z0] at hge'
  rw [z4] at hlt'
  exact ⟨hge', hlt'⟩

end Cert.PreRange

end
-- ==== Proof.lean ====
/-
  The certificate of the hierarchical cross-entropy kernel against its jnp reference.

  Both programs compute, over the extended reals, the mean over 2 097 152 rows of a row loss: with lsm the row's
  log-softmax (max-shifted), a row whose flag is 1 contributes −lsm(target), any other row
  −log (∑_c exp (lsm c) · table(target, c) + ε). The reference picks lsm(target) and the table's row by indexing; the
  kernel by comparing: it sums lsm c · [c = target] over the 16 classes and builds the table's row as
  ∑_{s<4} [target = s] · table(s, ·). For a target in 0 … 3 — the range the precondition states: the targets index
  the table's four rows — these are the same numbers (x · 0 = 0, x · 1 = x, 0 + x = x on the extended reals, nothing
  else). The reference sums all rows at once; the kernel sums 8192 rows per grid point, 128 points per half into one
  result element, and the host adds the two elements: the same sum, regrouped (addition on the extended reals is
  commutative and associative). Both divide by the same word 2²¹.
  The three frames: the two kernels' are the frame run's; the reference's is its run with the result dropped.
  The idealization rewrote nothing, so `preserves` is `True`.
-/
import proofs.«416918_j68959994904874_1_alg».proof.Defs
import proofs.«416918_j68959994904874_1_alg».proof.Proof.Gen.Kernel
import proofs.«416918_j68959994904874_1_alg».proof.Proof.Gen.Kernel.Skeleton
import proofs.«416918_j68959994904874_1_alg».proof.Proof.Gen.Kernel.Launch
import proofs.«416918_j68959994904874_1_alg».proof.Proof.Gen.Kernel.Points
import proofs.«416918_j68959994904874_1_alg».proof.Proof.Gen.Kernel.Frame
import proofs.«416918_j68959994904874_1_alg».proof.Proof.Gen.KernelIdeal
import proofs.«416918_j68959994904874_1_alg».proof.Proof.Gen.KernelIdeal.Skeleton
import proofs.«416918_j68959994904874_1_alg».proof.Proof.Gen.KernelIdeal.Launch
import proofs.«416918_j68959994904874_1_alg».proof.Proof.Gen.KernelIdeal.Points
import proofs.«416918_j68959994904874_1_alg».proof.Proof.Gen.KernelIdeal.Frame
import proofs.«416918_j68959994904874_1_alg».proof.Proof.Gen.ReferenceIdeal
import proofs.«416918_j68959994904874_1_alg».proof.Proof.Gen.Pre_finite_inputs
import proofs.«416918_j68959994904874_1_alg».proof.Proof.KerValue
import proofs.«416918_j68959994904874_1_alg».proof.Proof.RefValue
import proofs.«416918_j68959994904874_1_alg».proof.Proof.PreRange
import Idealize.ShloMosaic.Adequacy
import Idealize.ShloMosaic.Init

noncomputable section

namespace Cert.Proof

open Idealize.ShloMosaic Idealize.ShloMosaic.ValueIdx Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the mean loss of arguments that agree: the kernel's run read through its frame, the
    reference's through its operations, the targets' range read off the precondition. -/
theorem algebraic : Cert.algebraic_KernelIdeal_ReferenceIdeal := by
  intro m ρ m' ρ' hpre hagree
  have hT : ∀ (c : Dev Cert.KernelIdeal.nD) (r : Fin 2097152),
      0 ≤ (Cert.KernelIdeal.Loss.arr1 m c (ix1 r)).toInt ∧ (Cert.KernelIdeal.Loss.arr1 m c (ix1 r)).toInt < 4 :=
    fun c => Cert.PreRange.targets_in_range _ _ _ _ (hpre c)
  refine ⟨fun c => fun _ => Cert.KernelIdeal.Loss.meanLoss m c, Cert.KernelIdeal.Loss.run m ρ hT, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v23_eq, (hagree c).1, (hagree c).2.1, (hagree c).2.2.1, (hagree c).2.2.2]
  exact Cert.ReferenceIdeal.Loss.ref_value _ _ _ _ (hT c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
